-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1024x2002 : Shape := ⟨2, ![1024, 2002]⟩
abbrev S1024x256 : Shape := ⟨2, ![1024, 256]⟩
abbrev S256x8000 : Shape := ⟨2, ![256, 8000]⟩
abbrev S1024x64 : Shape := ⟨2, ![1024, 64]⟩
abbrev S64x22000 : Shape := ⟨2, ![64, 22000]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2002 : S_.BroadcastsInDim S1024x2002 (![] : Fin 0 → Fin S1024x2002.rank)
  reducesTo_S1024x2002_S_d0_1 : S1024x2002.ReducesTo [0, 1] S_
  bcast_S_S1024x256 : S_.BroadcastsInDim S1024x256 (![] : Fin 0 → Fin S1024x256.rank)
  reducesTo_S1024x256_S_d0_1 : S1024x256.ReducesTo [0, 1] S_
  bcast_S_S256x8000 : S_.BroadcastsInDim S256x8000 (![] : Fin 0 → Fin S256x8000.rank)
  reducesTo_S256x8000_S_d0_1 : S256x8000.ReducesTo [0, 1] S_
  bcast_S_S1024x64 : S_.BroadcastsInDim S1024x64 (![] : Fin 0 → Fin S1024x64.rank)
  reducesTo_S1024x64_S_d0_1 : S1024x64.ReducesTo [0, 1] S_
  bcast_S_S64x22000 : S_.BroadcastsInDim S64x22000 (![] : Fin 0 → Fin S64x22000.rank)
  reducesTo_S64x22000_S_d0_1 : S64x22000.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_arg5 : FVec F S1024x64 .f32) (main_arg6 : FVec F S64x22000 .f32) (main_v13 : IVec S_ 1) (main_v16 : IVec S256x8000 1) : IVec S_ 1 :=
  let main_c_5 : IVec S_ 1 := constantI S_ 1 1#1
  let main_v17 : IVec S_ 1 := (fun x v => Host.reduce IntOp.andi x v reducesTo_S256x8000_S_d0_1 h_S_) main_v16 main_c_5
  let main_v18 : IVec S_ 1 := andi main_v13 main_v17
  let main_v19 : FVec F S1024x64 .f32 := Host.absf main_arg5
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S64x22000 .f32 := Host.absf main_arg6
  let main_cst_8 : FVec F S_ .f32 := constant S_ .f32 0x7F800000#32
  let main_v25 : FVec F S64x22000 .f32 := broadcastInDim S64x22000 ![] bcast_S_S64x22000 main_cst_8
  let main_v26 : IVec S64x22000 1 := cmpf .olt main_v24 main_v25
  let main_c_9 : IVec S_ 1 := constantI S_ 1 1#1
  let main_v27 : IVec S_ 1 := (fun x v => Host.reduce IntOp.andi x v reducesTo_S64x22000_S_d0_1 h_S_) main_v26 main_c_9
  let main_v28 : IVec S_ 1 := andi main_v23 main_v27
  let main_c_10 : IVec S_ 32 := constantI S_ 32 0#32
  let main_v29 : IVec S4096 32 := broadcastInDim S4096 ![] bcast_S_S4096 main_c_10
  let main_v30 : IVec S4096 1 := cmpi .sge main_arg1 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v28 main_v31
  main_v32

def fn {F : FTy → Type} [FloatOps F] (main_arg0 : FVec F S4096x1024 .f32) (main_arg1 : IVec S4096 32) (main_arg2 : FVec F S1024x2002 .f32) (main_arg3 : FVec F S1024x256 .f32) (main_arg4 : FVec F S256x8000 .f32) (main_arg5 : FVec F S1024x64 .f32) (main_arg6 : FVec F S64x22000 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2002 .f32 := Host.absf main_arg2
  let main_cst_0 : FVec F S_ .f32 := constant S_ .f32 0x7F800000#32
  let main_v5 : FVec F S1024x2002 .f32 := broadcastInDim S1024x2002 ![] bcast_S_S1024x2002 main_cst_0
  let main_v6 : IVec S1024x2002 1 := cmpf .olt main_v4 main_v5
  let main_c_1 : IVec S_ 1 := constantI S_ 1 1#1
  let main_v7 : IVec S_ 1 := (fun x v => Host.reduce IntOp.andi x v reducesTo_S1024x2002_S_d0_1 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256x8000 .f32 := Host.absf main_arg4
  let main_cst_4 : FVec F S_ .f32 := constant S_ .f32 0x7F800000#32
  let main_v15 : FVec F S256x8000 .f32 := broadcastInDim S256x8000 ![] bcast_S_S256x8000 main_cst_4
  let main_v16 : IVec S256x8000 1 := cmpf .olt main_v14 main_v15
  fn_part1 (F := F) main_arg1 main_arg5 main_arg6 main_v13 main_v16
-- ==== Kernel.lean ====
abbrev S4096x1024 : Shape := ⟨2, ![4096, 1024]⟩
abbrev S4096 : Shape := ⟨1, ![4096]⟩
abbrev S1024x2002 : Shape := ⟨2, ![1024, 2002]⟩
abbrev S1024x256 : Shape := ⟨2, ![1024, 256]⟩
abbrev S256x8000 : Shape := ⟨2, ![256, 8000]⟩
abbrev S1024x64 : Shape := ⟨2, ![1024, 64]⟩
abbrev S64x22000 : Shape := ⟨2, ![64, 22000]⟩
abbrev S_ : Shape := ⟨0, ![]⟩
abbrev S4096x1 : Shape := ⟨2, ![4096, 1]⟩
abbrev S256x1024 : Shape := ⟨2, ![256, 1024]⟩
abbrev S256x1 : Shape := ⟨2, ![256, 1]⟩
abbrev S256x2002 : Shape := ⟨2, ![256, 2002]⟩
abbrev S256 : Shape := ⟨1, ![256]⟩
abbrev S256x256 : Shape := ⟨2, ![256, 256]⟩
abbrev S128x1024 : Shape := ⟨2, ![128, 1024]⟩
abbrev S128x1 : Shape := ⟨2, ![128, 1]⟩
abbrev S128x64 : Shape := ⟨2, ![128, 64]⟩
abbrev S128x22000 : Shape := ⟨2, ![128, 22000]⟩
abbrev S128 : Shape := ⟨1, ![128]⟩

abbrev nBuf : Space → Nat
  | .hbm => 78
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024x2002, .f32⟩
  | .hbm, ⟨3, _⟩ => ⟨S1024x256, .f32⟩
  | .hbm, ⟨4, _⟩ => ⟨S256x8000, .f32⟩
  | .hbm, ⟨5, _⟩ => ⟨S1024x64, .f32⟩
  | .hbm, ⟨6, _⟩ => ⟨S64x22000, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S4096, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S4096, .f32⟩
  | .hbm, ⟨56, _⟩ => ⟨S4096x1, .i32⟩
  | .hbm, ⟨57, _⟩ => ⟨S4096x1, .i32⟩
  | .hbm, ⟨58, _⟩ => ⟨S4096x1, .i32⟩
  | .hbm, ⟨59, _⟩ => ⟨S4096x1, .f32⟩
  | .hbm, ⟨60, _⟩ => ⟨S4096x1, .f32⟩
  | .hbm, ⟨61, _⟩ => ⟨S4096x1024, .bf16⟩
  | .hbm, ⟨62, _⟩ => ⟨S1024x2002, .bf16⟩
  | .hbm, ⟨63, _⟩ => ⟨S1024x256, .bf16⟩
  | .hbm, ⟨64, _⟩ => ⟨S256x8000, .bf16⟩
  | .hbm, ⟨65, _⟩ => ⟨S1024x64, .bf16⟩
  | .hbm, ⟨66, _⟩ => ⟨S64x22000, .bf16⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S256x1024, .bf16⟩
  | .local _ .vmem, ⟨1, _⟩ => ⟨S256x1024, .bf16⟩
  | .local _ .vmem, ⟨2, _⟩ => ⟨S1024x2002, .bf16⟩
  | .local _ .vmem, ⟨3, _⟩ => ⟨S256x1, .i32⟩
  | .local _ .vmem, ⟨4, _⟩ => ⟨S256x1, .i32⟩
  | .local _ .vmem, ⟨5, _⟩ => ⟨S256x1, .f32⟩
  | .local _ .vmem, ⟨6, _⟩ => ⟨S256x1, .f32⟩
  | .local _ .vmem, ⟨7, _⟩ => ⟨S256x1024, .bf16⟩
  | .local _ .vmem, ⟨8, _⟩ => ⟨S256x1024, .bf16⟩
  | .local _ .vmem, ⟨9, _⟩ => ⟨S1024x256, .bf16⟩
  | .local _ .vmem, ⟨10, _⟩ => ⟨S256x8000, .bf16⟩
  | .local _ .vmem, ⟨11, _⟩ => ⟨S256x1, .i32⟩
  | .local _ .vmem, ⟨12, _⟩ => ⟨S256x1, .i32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S128x1024, .bf16⟩
  | .local _ .vmem, ⟨18, _⟩ => ⟨S128x1024, .bf16⟩
  | .local _ .vmem, ⟨19, _⟩ => ⟨S1024x64, .bf16⟩
  | .local _ .vmem, ⟨20, _⟩ => ⟨S64x22000, .bf16⟩
  | .local _ .vmem, ⟨21, _⟩ => ⟨S128x1, .i32⟩
  | .local _ .vmem, ⟨22, _⟩ => ⟨S128x1, .i32⟩
  | .local _ .vmem, ⟨23, _⟩ => ⟨S128x1, .f32⟩
  | .local _ .vmem, ⟨24, _⟩ => ⟨S128x1, .f32⟩
  | .local _ .vmem, ⟨25, _⟩ => ⟨S128x1, .f32⟩
  | .local _ .vmem, ⟨26, _⟩ => ⟨S128x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_c_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v16 : Ref sig .tc := ⟨.hbm, 36, rfl⟩
abbrev main_c_7 : Ref sig .tc := ⟨.hbm, 37, rfl⟩
abbrev main_v17 : Ref sig .tc := ⟨.hbm, 38, rfl⟩
abbrev main_v18 : Ref sig .tc := ⟨.hbm, 39, rfl⟩
abbrev main_c_8 : Ref sig .tc := ⟨.hbm, 40, rfl⟩
abbrev main_c_9 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v19 : Ref sig .tc := ⟨.hbm, 47, rfl⟩
abbrev main_c_10 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_11 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst : Ref sig .tc := ⟨.hbm, 73, rfl⟩
abbrev main_v43 : Ref sig .tc := ⟨.hbm, 74, rfl⟩
abbrev main_cst_12 : Ref sig .tc := ⟨.hbm, 75, rfl⟩
abbrev main_v44 : Ref sig .tc := ⟨.hbm, 76, rfl⟩
abbrev main_v45 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2002 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x8000 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x22000 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S4096 : S_.BroadcastsInDim S4096 (![] : Fin 0 → Fin S4096.rank)
  natLt_1_32 : 1 < 32
  shapeCasts_S4096_S4096x1 : S4096.ShapeCasts S4096x1
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2002_S1024x2002_0_0 : ∀ a, (![0, 0] : Fin 2 → Nat) a + S1024x2002.size a ≤ S1024x2002.size a
  h_S1024x2002 : 0 < S1024x2002.numel
  shapeCasts_S1024x2002_S1024x2002 : S1024x2002.ShapeCasts S1024x2002
  reduces_S256x2002_S256 : S256x2002.Reduces [1] S256
  shapeCasts_S256_S256x1 : S256.ShapeCasts S256x1
  broadcasts_S256x1_S256x2002 : S256x1.Broadcasts S256x2002
  iota_S256x2002_d1_w32 : S256x2002.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x8000_S256x8000_0_0 : ∀ a, (![0, 0] : Fin 2 → Nat) a + S256x8000.size a ≤ S256x8000.size a
  h_S256x8000 : 0 < S256x8000.numel
  shapeCasts_S256x8000_S256x8000 : S256x8000.ShapeCasts S256x8000
  reduces_S256x8000_S256 : S256x8000.Reduces [1] S256
  broadcasts_S256x1_S256x8000 : S256x1.Broadcasts S256x8000
  iota_S256x8000_d1_w32 : S256x8000.Iotas .tc 32 [1]
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x22000_S64x22000_0_0 : ∀ a, (![0, 0] : Fin 2 → Nat) a + S64x22000.size a ≤ S64x22000.size a
  h_S64x22000 : 0 < S64x22000.numel
  shapeCasts_S64x22000_S64x22000 : S64x22000.ShapeCasts S64x22000
  reduces_S128x22000_S128 : S128x22000.Reduces [1] S128
  shapeCasts_S128_S128x1 : S128.ShapeCasts S128x1
  broadcasts_S128x1_S128x22000 : S128x1.Broadcasts S128x22000
  iota_S128x22000_d1_w32 : S128x22000.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S4096x1_S4096 : S4096x1.ShapeCasts S4096
  reducesTo_S4096_S_d0 : S4096.ReducesTo [0] S_
  h_S_ : 0 < S_.numel
  dot_S256x1024_S1024x2002_S256x2002_1_0_0_1_n_n_wf : DotDims.WF S256x1024 S1024x2002 S256x2002 [1] [0] [0] [1] [] []
  dot_S256x1024_S1024x256_S256x256_1_0_0_1_n_n_wf : DotDims.WF S256x1024 S1024x256 S256x256 [1] [0] [0] [1] [] []
  dot_S256x256_S256x8000_S256x8000_1_0_0_1_n_n_wf : DotDims.WF S256x256 S256x8000 S256x8000 [1] [0] [0] [1] [] []
  dot_S128x1024_S1024x64_S128x64_1_0_0_1_n_n_wf : DotDims.WF S128x1024 S1024x64 S128x64 [1] [0] [0] [1] [] []
  dot_S128x64_S64x22000_S128x22000_1_0_0_1_n_n_wf : DotDims.WF S128x64 S64x22000 S128x22000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2002.size a ≤ S1024x2002.size a
  hwx0_1 : ∀ i : grid0.Coords, EltTy.bits .bf16 = 32 ∨ (Rect.block (s := S1024x2002) S1024x2002.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .bf16 = 32 ∨ (Rect.block (s := S1024x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x8000.size a ≤ S256x8000.size a
  hwx1_2 : ∀ i : grid1.Coords, EltTy.bits .bf16 = 32 ∨ (Rect.block (s := S256x8000) S256x8000.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S4096x1.size a
  hwx1_3 : ∀ i : grid1.Coords, EltTy.bits .i32 = 32 ∨ (Rect.block (s := S4096x1) S256x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .f32 = 32 ∨ (Rect.block (s := S4096x1) S256x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1024.size a ≤ S4096x1024.size a
  hwx2_0 : ∀ i : grid2.Coords, EltTy.bits .bf16 = 32 ∨ (Rect.block (s := S4096x1024) S128x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S1024x64.size a
  hwx2_1 : ∀ i : grid2.Coords, EltTy.bits .bf16 = 32 ∨ (Rect.block (s := S1024x64) S1024x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x22000.size a ≤ S64x22000.size a
  hwx2_2 : ∀ i : grid2.Coords, EltTy.bits .bf16 = 32 ∨ (Rect.block (s := S64x22000) S64x22000.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S4096x1.size a
  hwx2_3 : ∀ i : grid2.Coords, EltTy.bits .i32 = 32 ∨ (Rect.block (s := S4096x1) S128x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S4096x1.size a
  hwx2_4 : ∀ i : grid2.Coords, EltTy.bits .f32 = 32 ∨ (Rect.block (s := S4096x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S4096x1.size a
  hwx2_5 : ∀ i : grid2.Coords, EltTy.bits .f32 = 32 ∨ (Rect.block (s := S4096x1) S128x1.size (cc2_transform_5 i) (hinb2_5 i)).WholeWords (EltTy.packing .f32)

variable [Facts₀]

def dot_S256x1024_S1024x2002_S256x2002_1_0_0_1_n_n : DotDims S256x1024 S1024x2002 S256x2002 where
  lhsContracting := [1]
  rhsContracting := [0]
  lhsNonContracting := [0]
  rhsNonContracting := [1]
  lhsBatch := []
  rhsBatch := []
  wf := dot_S256x1024_S1024x2002_S256x2002_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x8000_S256x8000_1_0_0_1_n_n : DotDims S256x256 S256x8000 S256x8000 where
  lhsContracting := [1]
  rhsContracting := [0]
  lhsNonContracting := [0]
  rhsNonContracting := [1]
  lhsBatch := []
  rhsBatch := []
  wf := dot_S256x256_S256x8000_S256x8000_1_0_0_1_n_n_wf
def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def dot_S128x64_S64x22000_S128x22000_1_0_0_1_n_n : DotDims S128x64 S64x22000 S128x22000 where
  lhsContracting := [1]
  rhsContracting := [0]
  lhsNonContracting := [0]
  rhsNonContracting := [1]
  lhsBatch := []
  rhsBatch := []
  wf := dot_S128x64_S64x22000_S128x22000_1_0_0_1_n_n_wf

abbrev win0_0 : Pipeline.Window sig grid0 :=
  Pipeline.Window.ofSpec (Memref.whole main_v31) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x2002.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S256x8000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v38) S256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1024x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S64x22000.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S128x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30) S128x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39) S128x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024x2002 : Shape := ⟨2, ![1024, 2002]⟩
abbrev S1024x256 : Shape := ⟨2, ![1024, 256]⟩
abbrev S256x8000 : Shape := ⟨2, ![256, 8000]⟩
abbrev S1024x64 : Shape := ⟨2, ![1024, 64]⟩
abbrev S64x22000 : Shape := ⟨2, ![64, 22000]⟩
abbrev S_ : Shape := ⟨0, ![]⟩
abbrev S4096x2002 : Shape := ⟨2, ![4096, 2002]⟩
abbrev S4096x1 : Shape := ⟨2, ![4096, 1]⟩
abbrev S4096x2 : Shape := ⟨2, ![4096, 2]⟩
abbrev S4096x256 : Shape := ⟨2, ![4096, 256]⟩
abbrev S4096x8000 : Shape := ⟨2, ![4096, 8000]⟩
abbrev S4096x64 : Shape := ⟨2, ![4096, 64]⟩
abbrev S4096x22000 : Shape := ⟨2, ![4096, 22000]⟩

abbrev nBuf : Space → Nat
  | .hbm => 174
  | .vmem => 0
  | .smem => 0
  | _ => 0

abbrev hbmTy0_0 (i : Nat) : BufTy := match i % 128 with
  | 0 => ⟨S4096x1024, .f32⟩
  | 1 => ⟨S4096, .i32⟩
  | 2 => ⟨S1024x2002, .f32⟩
  | 3 => ⟨S1024x256, .f32⟩
  | 4 => ⟨S256x8000, .f32⟩
  | 5 => ⟨S1024x64, .f32⟩
  | 6 => ⟨S64x22000, .f32⟩
  | 7 => ⟨S4096, .i32⟩
  | 8 => ⟨S_, .i32⟩
  | 9 => ⟨S4096, .i32⟩
  | 10 => ⟨S4096, .i1⟩
  | 11 => ⟨S4096, .i32⟩
  | 12 => ⟨S_, .i32⟩
  | 13 => ⟨S4096, .i32⟩
  | 14 => ⟨S4096, .i1⟩
  | 15 => ⟨S4096, .i32⟩
  | 16 => ⟨S4096, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .i32⟩
  | 27 => ⟨S4096x2002, .f32⟩
  | 28 => ⟨S_, .f32⟩
  | 29 => ⟨S4096, .f32⟩
  | 30 => ⟨S_, .f32⟩
  | 31 => ⟨S4096, .f32⟩
  | 32 => ⟨S4096, .f32⟩
  | 33 => ⟨S4096x1, .f32⟩
  | 34 => ⟨S4096x2002, .f32⟩
  | 35 => ⟨S4096x2002, .f32⟩
  | 36 => ⟨S4096x2002, .f32⟩
  | 37 => ⟨S_, .f32⟩
  | 38 => ⟨S4096, .f32⟩
  | 39 => ⟨S4096x1, .f32⟩
  | 40 => ⟨S4096x1, .f32⟩
  | 41 => ⟨S4096x2002, .f32⟩
  | 42 => ⟨S4096x2002, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x1, .i32⟩
  | 59 => ⟨S4096x2, .i32⟩
  | 60 => ⟨S4096, .f32⟩
  | 61 => ⟨S4096x256, .f32⟩
  | 62 => ⟨S4096x8000, .f32⟩
  | 63 => ⟨S_, .f32⟩
  | 64 => ⟨S4096, .f32⟩
  | 65 => ⟨S_, .f32⟩
  | 66 => ⟨S4096, .f32⟩
  | 67 => ⟨S4096, .f32⟩
  | 68 => ⟨S4096x1, .f32⟩
  | 69 => ⟨S4096x8000, .f32⟩
  | 70 => ⟨S4096x8000, .f32⟩
  | 71 => ⟨S4096x8000, .f32⟩
  | 72 => ⟨S_, .f32⟩
  | 73 => ⟨S4096, .f32⟩
  | 74 => ⟨S4096x1, .f32⟩
  | 75 => ⟨S4096x1, .f32⟩
  | 76 => ⟨S4096x8000, .f32⟩
  | 77 => ⟨S4096x8000, .f32⟩
  | 78 => ⟨S_, .i32⟩
  | 79 => ⟨S4096, .i32⟩
  | 80 => ⟨S4096, .i32⟩
  | 81 => ⟨S_, .i32⟩
  | 82 => ⟨S_, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i1⟩
  | 95 => ⟨S_, .i32⟩
  | 96 => ⟨S4096, .i32⟩
  | 97 => ⟨S4096, .i32⟩
  | 98 => ⟨S4096, .i32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S4096x1, .i32⟩
  | 108 => ⟨S4096x2, .i32⟩
  | 109 => ⟨S4096, .f32⟩
  | 110 => ⟨S_, .f32⟩
  | 111 => ⟨S_, .f32⟩
  | 112 => ⟨S4096, .f32⟩
  | 113 => ⟨S4096, .f32⟩
  | 114 => ⟨S4096, .f32⟩
  | 115 => ⟨S4096x64, .f32⟩
  | 116 => ⟨S4096x22000, .f32⟩
  | 117 => ⟨S_, .f32⟩
  | 118 => ⟨S4096, .f32⟩
  | 119 => ⟨S_, .f32⟩
  | 120 => ⟨S4096, .f32⟩
  | 121 => ⟨S4096, .f32⟩
  | 122 => ⟨S4096x1, .f32⟩
  | 123 => ⟨S4096x22000, .f32⟩
  | 124 => ⟨S4096x22000, .f32⟩
  | 125 => ⟨S4096x22000, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S4096x1, .f32⟩
  | 2 => ⟨S4096x22000, .f32⟩
  | 3 => ⟨S4096x22000, .f32⟩
  | 4 => ⟨S_, .i32⟩
  | 5 => ⟨S4096, .i32⟩
  | 6 => ⟨S4096, .i32⟩
  | 7 => ⟨S_, .i32⟩
  | 8 => ⟨S_, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x1, .i32⟩
  | 34 => ⟨S4096x2, .i32⟩
  | 35 => ⟨S4096, .f32⟩
  | 36 => ⟨S_, .f32⟩
  | 37 => ⟨S_, .f32⟩
  | 38 => ⟨S4096, .f32⟩
  | 39 => ⟨S4096, .f32⟩
  | 40 => ⟨S4096, .f32⟩
  | 41 => ⟨S_, .f32⟩
  | 42 => ⟨S_, .f32⟩
  | 43 => ⟨S_, .f32⟩
  | 44 => ⟨S_, .f32⟩
  | 45 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_6 : Ref sig .tc := ⟨.hbm, 50, rfl⟩
abbrev main_v22 : Ref sig .tc := ⟨.hbm, 51, rfl⟩
abbrev main_v23 : Ref sig .tc := ⟨.hbm, 52, rfl⟩
abbrev main_c_7 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call2_cst : Ref sig .tc := ⟨.hbm, 63, rfl⟩
abbrev main_call2_v0 : Ref sig .tc := ⟨.hbm, 64, rfl⟩
abbrev main_call2_cst_0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_cst_1 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_v33 : Ref sig .tc := ⟨.hbm, 77, rfl⟩
abbrev main_c_8 : Ref sig .tc := ⟨.hbm, 78, rfl⟩
abbrev main_v34 : Ref sig .tc := ⟨.hbm, 79, rfl⟩
abbrev main_v35 : Ref sig .tc := ⟨.hbm, 80, rfl⟩
abbrev main_c_9 : Ref sig .tc := ⟨.hbm, 81, rfl⟩
abbrev main_c_10 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v36 : Ref sig .tc := ⟨.hbm, 88, rfl⟩
abbrev main_c_11 : Ref sig .tc := ⟨.hbm, 89, rfl⟩
abbrev main_v37 : Ref sig .tc := ⟨.hbm, 90, rfl⟩
abbrev main_v38 : Ref sig .tc := ⟨.hbm, 91, rfl⟩
abbrev main_c_12 : Ref sig .tc := ⟨.hbm, 92, rfl⟩
abbrev main_v39 : Ref sig .tc := ⟨.hbm, 93, rfl⟩
abbrev main_v40 : Ref sig .tc := ⟨.hbm, 94, rfl⟩
abbrev main_c_13 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_c_14 : Ref sig .tc := ⟨.hbm, 99, rfl⟩
abbrev main_v44 : Ref sig .tc := ⟨.hbm, 100, rfl⟩
abbrev main_v45 : Ref sig .tc := ⟨.hbm, 101, rfl⟩
abbrev main_c_15 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst : Ref sig .tc := ⟨.hbm, 110, rfl⟩
abbrev main_call4_v0 : Ref sig .tc := ⟨.hbm, 111, rfl⟩
abbrev main_call4_v1 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_call5_cst : Ref sig .tc := ⟨.hbm, 117, rfl⟩
abbrev main_call5_v0 : Ref sig .tc := ⟨.hbm, 118, rfl⟩
abbrev main_call5_cst_0 : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_v5 : Ref sig .tc := ⟨.hbm, 124, rfl⟩
abbrev main_call5_v6 : Ref sig .tc := ⟨.hbm, 125, rfl⟩
abbrev main_call5_cst_1 : Ref sig .tc := ⟨.hbm, 126, rfl⟩
abbrev main_call5_v7 : Ref sig .tc := ⟨.hbm, 127, rfl⟩
abbrev main_call5_v8 : Ref sig .tc := ⟨.hbm, 128, rfl⟩
abbrev main_call5_v9 : Ref sig .tc := ⟨.hbm, 129, rfl⟩
abbrev main_call5_v10 : Ref sig .tc := ⟨.hbm, 130, rfl⟩
abbrev main_v57 : Ref sig .tc := ⟨.hbm, 131, rfl⟩
abbrev main_c_16 : Ref sig .tc := ⟨.hbm, 132, rfl⟩
abbrev main_v58 : Ref sig .tc := ⟨.hbm, 133, rfl⟩
abbrev main_v59 : Ref sig .tc := ⟨.hbm, 134, rfl⟩
abbrev main_c_17 : Ref sig .tc := ⟨.hbm, 135, rfl⟩
abbrev main_c_18 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_v60 : Ref sig .tc := ⟨.hbm, 142, rfl⟩
abbrev main_c_19 : Ref sig .tc := ⟨.hbm, 143, rfl⟩
abbrev main_v61 : Ref sig .tc := ⟨.hbm, 144, rfl⟩
abbrev main_v62 : Ref sig .tc := ⟨.hbm, 145, rfl⟩
abbrev main_c_20 : Ref sig .tc := ⟨.hbm, 146, rfl⟩
abbrev main_v63 : Ref sig .tc := ⟨.hbm, 147, rfl⟩
abbrev main_v64 : Ref sig .tc := ⟨.hbm, 148, rfl⟩
abbrev main_c_21 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_c_22 : Ref sig .tc := ⟨.hbm, 153, rfl⟩
abbrev main_v68 : Ref sig .tc := ⟨.hbm, 154, rfl⟩
abbrev main_v69 : Ref sig .tc := ⟨.hbm, 155, rfl⟩
abbrev main_c_23 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_cst_24 : Ref sig .tc := ⟨.hbm, 164, rfl⟩
abbrev main_call7_v0 : Ref sig .tc := ⟨.hbm, 165, rfl⟩
abbrev main_call7_v1 : Ref sig .tc := ⟨.hbm, 166, rfl⟩
abbrev main_v77 : Ref sig .tc := ⟨.hbm, 167, rfl⟩
abbrev main_v78 : Ref sig .tc := ⟨.hbm, 168, rfl⟩
abbrev main_cst_25 : Ref sig .tc := ⟨.hbm, 169, rfl⟩
abbrev main_v79 : Ref sig .tc := ⟨.hbm, 170, rfl⟩
abbrev main_cst_26 : Ref sig .tc := ⟨.hbm, 171, rfl⟩
abbrev main_v80 : Ref sig .tc := ⟨.hbm, 172, rfl⟩
abbrev main_v81 : Ref sig .tc := ⟨.hbm, 173, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  natLt_1_32 : 1 < 32
  reducesTo_S4096x2002_S4096_d1 : S4096x2002.ReducesTo [1] S4096
  h_S_ : 0 < S_.numel
  bcast_S4096_S4096x1_0 : S4096.BroadcastsInDim S4096x1 (![0] : Fin 1 → Fin S4096x1.rank)
  bcast_S4096x1_S4096x2002_0_1 : S4096x1.BroadcastsInDim S4096x2002 (![0, 1] : Fin 2 → Fin S4096x2002.rank)
  concatenates_S4096x1_S4096x1_S4096x2_d1 : Shape.Concatenates [S4096x1, S4096x1] S4096x2 1
  reducesTo_S4096x8000_S4096_d1 : S4096x8000.ReducesTo [1] S4096
  bcast_S4096x1_S4096x8000_0_1 : S4096x1.BroadcastsInDim S4096x8000 (![0, 1] : Fin 2 → Fin S4096x8000.rank)
  reducesTo_S4096x22000_S4096_d1 : S4096x22000.ReducesTo [1] S4096
  bcast_S4096x1_S4096x22000_0_1 : S4096x1.BroadcastsInDim S4096x22000 (![0, 1] : Fin 2 → Fin S4096x22000.rank)
  reducesTo_S4096_S_d0 : S4096.ReducesTo [0] S_
  dot_S4096x1024_S1024x2002_S4096x2002_1_0_0_1_n_n_wf : DotDims.WF S4096x1024 S1024x2002 S4096x2002 [1] [0] [0] [1] [] []
  gather_S4096x2002_S4096x2_S4096_n_01_n_n_01_1_11_wf : GatherDims.WF S4096x2002 S4096x2 S4096 [] [0, 1] [] [0, 1] [] 1 ![1, 1]
  dot_S4096x1024_S1024x256_S4096x256_1_0_0_1_n_n_wf : DotDims.WF S4096x1024 S1024x256 S4096x256 [1] [0] [0] [1] [] []
  dot_S4096x256_S256x8000_S4096x8000_1_0_0_1_n_n_wf : DotDims.WF S4096x256 S256x8000 S4096x8000 [1] [0] [0] [1] [] []
  gather_S4096x8000_S4096x2_S4096_n_01_n_n_01_1_11_wf : GatherDims.WF S4096x8000 S4096x2 S4096 [] [0, 1] [] [0, 1] [] 1 ![1, 1]
  dot_S4096x1024_S1024x64_S4096x64_1_0_0_1_n_n_wf : DotDims.WF S4096x1024 S1024x64 S4096x64 [1] [0] [0] [1] [] []
  dot_S4096x64_S64x22000_S4096x22000_1_0_0_1_n_n_wf : DotDims.WF S4096x64 S64x22000 S4096x22000 [1] [0] [0] [1] [] []
  gather_S4096x22000_S4096x2_S4096_n_01_n_n_01_1_11_wf : GatherDims.WF S4096x22000 S4096x2 S4096 [] [0, 1] [] [0, 1] [] 1 ![1, 1]

variable [Facts₀]

def dot_S4096x1024_S1024x2002_S4096x2002_1_0_0_1_n_n : DotDims S4096x1024 S1024x2002 S4096x2002 where
  lhsContracting := [1]
  rhsContracting := [0]
  lhsNonContracting := [0]
  rhsNonContracting := [1]
  lhsBatch := []
  rhsBatch := []
  wf := dot_S4096x1024_S1024x2002_S4096x2002_1_0_0_1_n_n_wf
def gather_S4096x2002_S4096x2_S4096_n_01_n_n_01_1_11 : GatherDims S4096x2002 S4096x2 S4096 where
  offsetDims := []
  collapsedSliceDims := [0, 1]
  operandBatchingDims := []
  startIndicesBatchingDims := []
  startIndexMap := [0, 1]
  indexVectorDim := 1
  sliceSizes := ![1, 1]
  wf := gather_S4096x2002_S4096x2_S4096_n_01_n_n_01_1_11_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x8000_S4096x8000_1_0_0_1_n_n : DotDims S4096x256 S256x8000 S4096x8000 where
  lhsContracting := [1]
  rhsContracting := [0]
  lhsNonContracting := [0]
  rhsNonContracting := [1]
  lhsBatch := []
  rhsBatch := []
  wf := dot_S4096x256_S256x8000_S4096x8000_1_0_0_1_n_n_wf
def gather_S4096x8000_S4096x2_S4096_n_01_n_n_01_1_11 : GatherDims S4096x8000 S4096x2 S4096 where
  offsetDims := []
  collapsedSliceDims := [0, 1]
  operandBatchingDims := []
  startIndicesBatchingDims := []
  startIndexMap := [0, 1]
  indexVectorDim := 1
  sliceSizes := ![1, 1]
  wf := gather_S4096x8000_S4096x2_S4096_n_01_n_n_01_1_11_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x22000_S4096x22000_1_0_0_1_n_n : DotDims S4096x64 S64x22000 S4096x22000 where
  lhsContracting := [1]
  rhsContracting := [0]
  lhsNonContracting := [0]
  rhsNonContracting := [1]
  lhsBatch := []
  rhsBatch := []
  wf := dot_S4096x64_S64x22000_S4096x22000_1_0_0_1_n_n_wf
def gather_S4096x22000_S4096x2_S4096_n_01_n_n_01_1_11 : GatherDims S4096x22000 S4096x2 S4096 where
  offsetDims := []
  collapsedSliceDims := [0, 1]
  operandBatchingDims := []
  startIndicesBatchingDims := []
  startIndexMap := [0, 1]
  indexVectorDim := 1
  sliceSizes := ![1, 1]
  wf := gather_S4096x22000_S4096x2_S4096_n_01_n_n_01_1_11_wf

class Facts : Prop extends Facts₀ where

variable [Facts]
-- ==== Proof.Spec.lean ====
/-
  The row-wise mathematics of an adaptive-softmax log-likelihood.

  A batch row with hidden vector x and target word t scores against a head of 2002 columns (2000 head
  tokens and one slot per tail cluster) and two tails reached through a bottleneck: row vector times
  matrix, then times a second matrix. The cluster of t is the number of cutoffs (2000, 10000) it reaches.
  The head reads its log-softmax at t itself (cluster 0) or at the slot 2000 + cluster - 1; tail k reads
  its log-softmax at t less its cutoff, clipped into the tail's columns, and counts only for cluster k + 1.

  Two spellings of "the log-softmax of a row at a column" meet here. One selects the column by a mask and
  a sum: the sum over all columns j of (the entry if the word of j equals the column word, else 0), less
  the row maximum, less the log of the sum of shifted exponentials (lsmPick). The other reads the entry at
  a position directly (lsmAt). They agree when the column word is a position of the row (Bridge).
  Likewise a term is switched off either by a product with 0 or 1 (KOUT) or by a choice between the term
  and 0 (ROUT); on the extended reals 0 * x = 0 and 1 * x = x for every x.
-/
import Idealize.ShloMosaic.PureOps.Ideal
import Idealize.ShloMosaic.Lib.ValueIdx

noncomputable section

namespace Cert.Spec

open Idealize.ShloMosaic Idealize.ShloMosaic.ValueIdx
open scoped BigOperators

/-! ### One row of scores -/

/-- The maximum of a row, from the bottom element. -/
def rowMax {n : ℕ} (l : Fin n → EReal) : EReal := Finset.univ.fold max ⊥ l

/-- The log of the sum of the row's exponentials, each shifted by the row maximum. -/
def rowLse {n : ℕ} (l : Fin n → EReal) : EReal := Ideal.log (∑ j, Ideal.exp (l j - rowMax l))

/-- The entry whose column's word is g, found by a mask and a sum over all columns. -/
def pick {n : ℕ} (l : Fin n → EReal) (g : BitVec 32) : EReal :=
  ∑ j : Fin n, if BitVec.ofNat 32 j.val = g then l j else 0

/-- The log-softmax of the row at the column whose word is g, the column found by mask and sum. -/
def lsmPick {n : ℕ} (l : Fin n → EReal) (g : BitVec 32) : EReal := (pick l g - rowMax l) - rowLse l

/-- The log-softmax of the row at position j. -/
def lsmAt {n : ℕ} (l : Fin n → EReal) (j : Fin n) : EReal := (l j - rowMax l) - rowLse l

/-- The log-softmax of the row at the position a signed index word names, clamped into the row. -/
def lsmClamp {n : ℕ} (hn : 0 < n) (l : Fin n → EReal) (g : BitVec 32) : EReal :=
  lsmAt l ⟨min g.toInt.toNat (n - 1), by omega⟩

/-! ### Row vector times matrix -/

/-- A row vector times a matrix. -/
def vecMat {D N : ℕ} (x : Fin D → EReal) (W : (⟨2, ![D, N]⟩ : Shape).Idx → EReal) : Fin N → EReal :=
  fun j => ∑ d : Fin D, x d * W (ix2 d j)

/-- Row r of a matrix. -/
def rowOf {R D : ℕ} (X : (⟨2, ![R, D]⟩ : Shape).Idx → EReal) (r : Fin R) : Fin D → EReal := fun d => X (ix2 r d)

/-! ### The index words computed from a target word -/

/-- The cluster of a target: how many of the cutoffs 2000, 10000 it reaches (signed compare). -/
def cidW (t : BitVec 32) : BitVec 32 :=
  IntOp.addi ((IntOp.cmpi .sge t 2000#32).setWidth 32) ((IntOp.cmpi .sge t 10000#32).setWidth 32)

/-- The head column: the target itself in cluster 0, else the cluster's slot 2000 + cluster - 1. -/
def gidxW (t : BitVec 32) : BitVec 32 :=
  Scalar.select (IntOp.cmpi .eq (cidW t) 0#32) t (IntOp.subi (IntOp.addi 2000#32 (cidW t)) 1#32)

/-- The column in the first tail: t - 2000 clipped into [0, 7999]. -/
def t0W (t : BitVec 32) : BitVec 32 := IntOp.minsi 7999#32 (IntOp.maxsi 0#32 (IntOp.subi t 2000#32))

/-- The column in the second tail: t - 10000 clipped into [0, 21999]. -/
def t1W (t : BitVec 32) : BitVec 32 := IntOp.minsi 21999#32 (IntOp.maxsi 0#32 (IntOp.subi t 10000#32))

/-- A signed index word with the wrap of a negative index by the axis length n. -/
def wrapW (n : BitVec 32) (g : BitVec 32) : BitVec 32 :=
  Scalar.select (IntOp.cmpi .slt g 0#32) (IntOp.addi g n) g

/-! ### One row of the result, in the two spellings -/

section Rows

variable (X : (⟨2, ![4096, 1024]⟩ : Shape).Idx → EReal) (WH : (⟨2, ![1024, 2002]⟩ : Shape).Idx → EReal)
  (W10 : (⟨2, ![1024, 256]⟩ : Shape).Idx → EReal) (W20 : (⟨2, ![256, 8000]⟩ : Shape).Idx → EReal)
  (W11 : (⟨2, ![1024, 64]⟩ : Shape).Idx → EReal) (W21 : (⟨2, ![64, 22000]⟩ : Shape).Idx → EReal)

/-- The head's scores of row r. -/
def headRow (r : Fin 4096) : Fin 2002 → EReal := vecMat (rowOf X r) WH
/-- The first tail's scores of row r. -/
def tail0Row (r : Fin 4096) : Fin 8000 → EReal := vecMat (vecMat (rowOf X r) W10) W20
/-- The second tail's scores of row r. -/
def tail1Row (r : Fin 4096) : Fin 22000 → EReal := vecMat (vecMat (rowOf X r) W11) W21

/-- Row r of the result with columns found by mask and sum and the tails switched by a 0 / 1 factor. -/
def KOUT (t : BitVec 32) (r : Fin 4096) : EReal :=
  (lsmPick (headRow X WH r) (gidxW t)
      + lsmPick (tail0Row X W10 W20 r) (t0W t) * FloatOps.uitofp (F := Ideal) .f32 (IntOp.cmpi .eq (cidW t) 1#32))
    + lsmPick (tail1Row X W11 W21 r) (t1W t) * FloatOps.uitofp (F := Ideal) .f32 (IntOp.cmpi .eq (cidW t) 2#32)

/-- Row r of the result with columns read at clamped positions and the tails switched by a choice. -/
def ROUT (t : BitVec 32) (r : Fin 4096) : EReal :=
  (lsmClamp (by decide) (headRow X WH r) (wrapW 2002#32 (gidxW t))
      + Scalar.select (IntOp.cmpi .eq (cidW t) 1#32)
          (lsmClamp (by decide) (tail0Row X W10 W20 r) (wrapW 8000#32 (t0W t))) (Ideal.ofBits .f32 0x00000000#32))
    + Scalar.select (IntOp.cmpi .eq (cidW t) 2#32)
        (lsmClamp (by decide) (tail1Row X W11 W21 r) (wrapW 22000#32 (t1W t))) (Ideal.ofBits .f32 0x00000000#32)

end Rows

end Cert.Spec

end
-- ==== Proof.Region0.lean ====
/-
  The value of the head region: after the region, entry (r, 0) of its output array is the log-softmax of row r of the
  head scores — row r of the hidden vectors times the head matrix — at the column the r-th head word names, the column
  found by a mask and a row sum.

  The body works on a block of 256 rows. Its one stored value is read at a row of the block: the product into a zero
  accumulator is the row vector times the matrix; the row maximum is a fold of max from minus infinity, which is the
  bottom element; the two row sums are sums over the 2002 columns; the mask compares the column number with the row's
  word. Point t of the grid holds rows 256 t … 256 t + 255 of the hidden vectors and of the words, and the whole head
  matrix, and writes back rows 256 t … 256 t + 255 of the output; the sixteen points cover its 4096 rows.
-/
import proofs.«422491_j80461917323672_2_alg».proof.Proof.Gen.KernelIdeal.Frame
import proofs.«422491_j80461917323672_2_alg».proof.Proof.Spec
import Idealize.ShloMosaic.Lib.Pipeline.Value
import Idealize.ShloMosaic.Lib.ValueIdx
import Idealize.ShloMosaic.PureOps.Ideal.Laws

noncomputable section

namespace Cert.KernelIdeal.Region0

open Idealize.ShloMosaic Idealize.ShloMosaic.TcCoe Idealize.SL.Sem Cert.KernelIdeal Cert.KernelIdeal.Gen Cert.Spec
open Idealize.ShloMosaic.ValueIdx
open scoped BigOperators

/-! ### Layout operations and words, read at an index -/

/-- A vector viewed as a column: the entry at (i, 0) is the entry at i. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column repeated along the rows: the entry at (p, c) is the column's entry at (p, 0). -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the columns reads: row p, column k. -/
theorem lift_row (hr : S256x2002.Reduces [1] S256) (p : Fin 256) (k : Fin 2002) : hr.lift (ix1 p) k = ix2 p k :=
  funext fun c => Fin.ext (by match c with | ⟨0, _⟩ => rfl | ⟨1, _⟩ => rfl)

/-- The word of minus infinity is the bottom element. -/
theorem ofBits_ninf : Ideal.ofBits .f32 0xFF800000#32 = (⊥ : EReal) := by simp [Ideal.ofBits, Ideal.ieee]

/-- A select on the equality of two words is the choice on that equality. -/
theorem select_cmpi_eq {α : Type} (a g : BitVec 32) (x z : α) :
    Scalar.select (IntOp.cmpi .eq a g) x z = if a = g then x else z := by
  unfold Scalar.select IntOp.cmpi
  by_cases h : a = g
  · subst h; simp
  · have hb : (a == g) = false := by rw [beq_eq_false_iff_ne]; exact h
    simp [hb, h]

/-! ### The scores of a row block: the block of hidden vectors times the head matrix -/

theorem headDot_lhs_0 (i : S256x2002.Idx) (q : dot_S256x1024_S1024x2002_S256x2002_1_0_0_1_n_n.contr.Idx) :
    (dot_S256x1024_S1024x2002_S256x2002_1_0_0_1_n_n.lhsIdx i q 0).val = (i 0).val := by
  unfold DotDims.lhsIdx
  rw [dif_neg (show ¬(0 : Fin S256x1024.rank) ∈ dot_S256x1024_S1024x2002_S256x2002_1_0_0_1_n_n.lhsBatch by decide), dif_pos (show (0 : Fin S256x1024.rank) ∈ dot_S256x1024_S1024x2002_S256x2002_1_0_0_1_n_n.lhsNonContracting by decide)]
  rfl
theorem headDot_lhs_1 (i : S256x2002.Idx) (q : dot_S256x1024_S1024x2002_S256x2002_1_0_0_1_n_n.contr.Idx) :
    (dot_S256x1024_S1024x2002_S256x2002_1_0_0_1_n_n.lhsIdx i q 1).val = (q ⟨0, by decide⟩).val :=
  dot_S256x1024_S1024x2002_S256x2002_1_0_0_1_n_n.lhsIdx_val_of_single rfl i q
theorem headDot_rhs_0 (i : S256x2002.Idx) (q : dot_S256x1024_S1024x2002_S256x2002_1_0_0_1_n_n.contr.Idx) :
    (dot_S256x1024_S1024x2002_S256x2002_1_0_0_1_n_n.rhsIdx i q 0).val = (q ⟨0, by decide⟩).val :=
  dot_S256x1024_S1024x2002_S256x2002_1_0_0_1_n_n.rhsIdx_val_of_single rfl i q
theorem headDot_rhs_1 (i : S256x2002.Idx) (q : dot_S256x1024_S1024x2002_S256x2002_1_0_0_1_n_n.contr.Idx) :
    (dot_S256x1024_S1024x2002_S256x2002_1_0_0_1_n_n.rhsIdx i q 1).val = (i 1).val := by
  unfold DotDims.rhsIdx
  rw [dif_neg (show ¬(1 : Fin S1024x2002.rank) ∈ dot_S256x1024_S1024x2002_S256x2002_1_0_0_1_n_n.rhsBatch by decide), dif_pos (show (1 : Fin S1024x2002.rank) ∈ dot_S256x1024_S1024x2002_S256x2002_1_0_0_1_n_n.rhsNonContracting by decide)]
  rfl

/-- The product into a zero accumulator, at row p and column j: row p of the left block times the matrix, at j. -/
theorem scores_apply (x0 : FVec Ideal S256x1024 .bf16) (x1 : FVec Ideal S1024x2002 .bf16) (p : Fin 256) (j : Fin 2002) :
    matmul dot_S256x1024_S1024x2002_S256x2002_1_0_0_1_n_n none x0 x1 (constant S256x2002 .f32 0x00000000#32) (ix2 p j)
      = vecMat (fun d => x0 (ix2 p d)) x1 j := by
  simp only [matmul]
  rw [Ideal.matmul_constant_zero_apply, ← Equiv.sum_comp (contrEquiv1 dot_S256x1024_S1024x2002_S256x2002_1_0_0_1_n_n 1024 rfl rfl).symm]
  unfold vecMat
  refine Finset.sum_congr rfl fun k _ => ?_
  have hk := contrEquiv1_symm_val dot_S256x1024_S1024x2002_S256x2002_1_0_0_1_n_n 1024 rfl rfl k
  have el : dot_S256x1024_S1024x2002_S256x2002_1_0_0_1_n_n.lhsIdx (ix2 p j) ((contrEquiv1 dot_S256x1024_S1024x2002_S256x2002_1_0_0_1_n_n 1024 rfl rfl).symm k) = ix2 p k := funext fun a => Fin.ext (by
    match a with
    | ⟨0, _⟩ => exact headDot_lhs_0 _ _
    | ⟨1, _⟩ => exact (headDot_lhs_1 _ _).trans hk)
  have er : dot_S256x1024_S1024x2002_S256x2002_1_0_0_1_n_n.rhsIdx (ix2 p j) ((contrEquiv1 dot_S256x1024_S1024x2002_S256x2002_1_0_0_1_n_n 1024 rfl rfl).symm k) = ix2 k j := funext fun a => Fin.ext (by
    match a with
    | ⟨0, _⟩ => exact (headDot_rhs_0 _ _).trans hk
    | ⟨1, _⟩ => exact headDot_rhs_1 _ _)
  rw [el, er]

/-! ### The row reductions of a block of scores, read at a row -/

/-- The row maximum kept as a column: at row p, the maximum of row p from the bottom element. -/
theorem rowMax_apply (L : FVec Ideal S256x2002 .f32) (hr : S256x2002.Reduces [1] S256) (hφ : FKind.Formats .f32)
    (hacc : (0xFF800000#32 : BitVec 32) = FKind.maximumf.neutral .f32 hφ) (hsc : S256.ShapeCasts S256x1) (p : Fin 256) (u : Fin 1) :
    shapeCast S256x1 (multiReduction .maximumf [1] S256 L 0xFF800000#32 hr hφ hacc) hsc (ix2 p u)
      = rowMax (fun j : Fin 2002 => L (ix2 p j)) := by
  refine (shapeCast_col_apply _ hsc p u).trans ?_
  refine (Ideal.multiReduction_maximumf_single L _ hr hφ hacc (ix1 p)).trans ?_
  show Finset.fold max (Ideal.ofBits .f32 0xFF800000#32) (fun k : Fin 2002 => L (hr.lift (ix1 p) k)) Finset.univ = _
  rw [ofBits_ninf]
  unfold rowMax
  exact congrArg (fun f => Finset.fold max (⊥ : EReal) f (Finset.univ : Finset (Fin 2002))) (funext fun k => congrArg L (lift_row hr p k))

/-- A row sum kept as a column: at row p, the sum of row p. -/
theorem rowSum_apply (M : FVec Ideal S256x2002 .f32) (hr : S256x2002.Reduces [1] S256) (hφ : FKind.Formats .f32)
    (hacc : (0x00000000#32 : BitVec 32) = FKind.add.neutral .f32 hφ) (hsc : S256.ShapeCasts S256x1) (p : Fin 256) (u : Fin 1) :
    shapeCast S256x1 (multiReduction .add [1] S256 M 0x00000000#32 hr hφ hacc) hsc (ix2 p u)
      = ∑ j : Fin 2002, M (ix2 p j) := by
  refine (shapeCast_col_apply _ hsc p u).trans ?_
  refine (Ideal.multiReduction_add_single M _ hr hφ hacc (ix1 p)).trans ?_
  exact Finset.sum_congr rfl fun k _ => congrArg M (lift_row hr p k)

/-- The logarithm and the exponential of a vector are taken entry by entry. -/
theorem log_at {s : Shape} (a : FVec Ideal s .f32) (i : s.Idx) : log a i = Ideal.log (a i) := rfl
theorem exp_at {s : Shape} (a : FVec Ideal s .f32) (i : s.Idx) : exp a i = Ideal.exp (a i) := rfl

/-- The body's arithmetic on a block of scores L and a column of words x2, at row p: the log-softmax of row p of L at
    the column whose word is x2's entry of row p — the picked entry (a masked row sum), less the row maximum, less the
    log of the row sum of the shifted exponentials. -/
theorem lsm_apply (L : FVec Ideal S256x2002 .f32) (x2 : IVec S256x1 32)
    (hr : S256x2002.Reduces [1] S256) (hφ : FKind.Formats .f32)
    (hmax : (0xFF800000#32 : BitVec 32) = FKind.maximumf.neutral .f32 hφ)
    (hadd : (0x00000000#32 : BitVec 32) = FKind.add.neutral .f32 hφ)
    (hsc : S256.ShapeCasts S256x1) (hb : S256x1.Broadcasts S256x2002) (hio : S256x2002.Iotas .tc 32 [1])
    (hsc2 : S256x1.ShapeCasts S256x1) (p : Fin 256) (u : Fin 1) :
    subf (subf
        (shapeCast S256x1 (multiReduction .add [1] S256
          (select (cmpi .eq (iota .tc S256x2002 32 [1] hio) (broadcastTo S256x2002 (shapeCast S256x1 x2 hsc2) hb)) L
            (broadcast S256x2002 (Scalar.ofBits (F := Ideal) .f32 0x00000000#32))) 0x00000000#32 hr hφ hadd) hsc)
        (shapeCast S256x1 (multiReduction .maximumf [1] S256 L 0xFF800000#32 hr hφ hmax) hsc))
      (log (shapeCast S256x1 (multiReduction .add [1] S256
          (exp (subf L (broadcastTo S256x2002 (shapeCast S256x1 (multiReduction .maximumf [1] S256 L 0xFF800000#32 hr hφ hmax) hsc) hb)))
          0x00000000#32 hr hφ hadd) hsc)) (ix2 p u)
      = lsmPick (fun j : Fin 2002 => L (ix2 p j)) (x2 (ix2 p 0)) := by
  rw [subf_apply, subf_apply, log_at]
  unfold lsmPick rowLse pick
  refine congrArg₂ (· - ·) (congrArg₂ (· - ·) ?_ ?_) (congrArg Ideal.log ?_)
  · refine (rowSum_apply _ hr hφ hadd hsc p u).trans (Finset.sum_congr rfl fun j _ => ?_)
    rw [select_apply]
    show Scalar.select (IntOp.cmpi .eq (iota .tc S256x2002 32 [1] hio (ix2 p j)) (broadcastTo S256x2002 (shapeCast S256x1 x2 hsc2) hb (ix2 p j))) (L (ix2 p j)) (Ideal.ofBits .f32 0x00000000#32) = _
    rw [iota_single_apply, broadcastTo_col_apply, shapeCast_self, select_cmpi_eq, Ideal.ofBits_zero_f32]
  · exact rowMax_apply L hr hφ hmax hsc p u
  · refine (rowSum_apply _ hr hφ hadd hsc p u).trans (Finset.sum_congr rfl fun j _ => ?_)
    rw [exp_at, subf_apply, broadcastTo_col_apply, rowMax_apply]

/-! ### The payload at a row of the output block -/

/-- The body's one stored value, at row p of its block: the log-softmax of (row p of the block of hidden vectors, times
    the head matrix) at the column the row's word names. -/
theorem pay_apply (x0 : Vec Ideal S256x1024 .bf16) (x1 : Vec Ideal S1024x2002 .bf16) (x2 : Vec Ideal S256x1 .i32)
    (p : Fin 256) (u : Fin 1) :
    k0_pay1 (F := Ideal) x0 x1 x2 (ix2 p u) = lsmPick (vecMat (fun d => x0 (ix2 p d)) x1) (x2 (ix2 p 0)) := by
  unfold k0_pay1
  refine (lsm_apply _ x2 _ _ _ _ _ _ _ _ p u).trans ?_
  rw [shapeCast_self, shapeCast_self]
  exact congrArg (fun l => lsmPick l (x2 (ix2 p 0))) (funext fun j => scores_apply x0 x1 p j)

/-- A row of the output block, from what the three input blocks hold there: when row (y 0) of the block x0 is row (i 0)
    of the array X, the block x1 is the matrix W, and the word of x2 at y is the word of T at i, the body's stored
    value at y is the log-softmax of (row (i 0) of X times W) at the column T names at i. -/
theorem block_row (X : Vec Ideal S4096x1024 .bf16) (W : Vec Ideal S1024x2002 .bf16) (T : Vec Ideal S4096x1 .i32)
    (x0 : Vec Ideal S256x1024 .bf16) (x1 : Vec Ideal S1024x2002 .bf16) (x2 : Vec Ideal S256x1 .i32)
    (y : S256x1.Idx) (i : S4096x1.Idx)
    (h0 : ∀ d : Fin 1024, x0 (ix2 ⟨(y 0).val, idx2_lt0 y⟩ d) = rowOf X (i 0) d)
    (h1 : x1 = W) (h2 : x2 y = T i) :
    k0_pay1 (F := Ideal) x0 x1 x2 y = lsmPick (vecMat (rowOf X (i 0)) W) (T i) := by
  obtain ⟨p, u, rfl⟩ : ∃ (p : Fin 256) (u : Fin 1), y = ix2 p u := ⟨y 0, y 1, eq_ix2 y⟩
  obtain rfl : u = 0 := Subsingleton.elim _ _
  rw [pay_apply, h2, h1]
  exact congrArg (fun l => lsmPick (vecMat l W) (T i)) (funext fun d => h0 d)

/-! ### From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the arrays the region finds: entry (r, 0) is the log-softmax of (row r of the
    hidden vectors times the head matrix) at the column the r-th head word names. -/
abbrev rowsOut (c : Dev nD) : S4096x1.Idx → EReal :=
  fun i => lsmPick (vecMat (rowOf (V c main_v31) (i 0)) (V c main_v32)) (V c main_v26 i)

/-- The index maps over the grid: at point t the hidden vectors', the words' and the output's blocks are row block t,
    and the head matrix's block is the whole matrix. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- What point t writes back is block t of `rowsOut`. -/
theorem flushed_eq (c : Dev nD) (t : Fin cfg0.N) :
    (dat0 (F := Ideal) V c).flushed 3 t = ((cfg0.win 3).blk t).view.read (Elt Ideal) (rowsOut V c) := by
  show (cfg0.win 3).cut (grid0.coords t) ((dat0 (F := Ideal) V c).after 3 t) = _
  rw [after0_3]
  unfold out0_3
  rw [View.canon_unit_zero zero_offsets]
  simp only [View.ld_unit_zero (S := S256x1024) zero_offsets, View.ld_unit_zero (S := S1024x2002) zero_offsets,
    View.ld_unit_zero (S := S256x1) zero_offsets]
  obtain ⟨e00, e01, e10, e11, e20, e21, e30, e31⟩ := idx_facts t
  funext y
  show k0_pay1 (F := Ideal) (iblk0 V c 0 t) (iblk0 V c 1 t) (iblk0 V c 2 t) y = rowsOut V c (((cfg0.win 3).blk t).view.emb y)
  refine block_row (V c main_v31) (V c main_v32) (V c main_v26) (iblk0 V c 0 t) (iblk0 V c 1 t) (iblk0 V c 2 t) y
    (((cfg0.win 3).blk t).view.emb y) (fun d => ?_) (funext fun z => ?_) ?_
  · show V c main_v31 (((cfg0.win 0).blk t).view.emb (ix2 ⟨(y 0).val, idx2_lt0 y⟩ d))
      = V c main_v31 (ix2 ((((cfg0.win 3).blk t).view.emb y) 0) d)
    refine congrArg (V c main_v31) (funext fun a => Fin.ext ?_)
    match a with
    | ⟨0, _⟩ => show win0_0.index t (0 : Fin 2) * 256 + 1 * (y 0).val = win0_3.index t (0 : Fin 2) * 256 + 1 * (y 0).val; rw [e00]
    | ⟨1, _⟩ => show win0_0.index t (1 : Fin 2) * 1024 + 1 * d.val = d.val; rw [e01]; omega
  · show V c main_v32 (((cfg0.win 1).blk t).view.emb z) = V c main_v32 z
    refine congrArg (V c main_v32) (funext fun a => Fin.ext ?_)
    match a with
    | ⟨0, _⟩ => show win0_1.index t (0 : Fin 2) * 1024 + 1 * (z 0).val = (z 0).val; rw [e10]; omega
    | ⟨1, _⟩ => show win0_1.index t (1 : Fin 2) * 2002 + 1 * (z 1).val = (z 1).val; rw [e11]; omega
  · show V c main_v26 (((cfg0.win 2).blk t).view.emb y) = V c main_v26 (((cfg0.win 3).blk t).view.emb y)
    refine congrArg (V c main_v26) (funext fun a => Fin.ext ?_)
    match a with
    | ⟨0, _⟩ => show win0_2.index t (0 : Fin 2) * 256 + 1 * (y 0).val = win0_3.index t (0 : Fin 2) * 256 + 1 * (y 0).val; rw [e20]
    | ⟨1, _⟩ => show win0_2.index t (1 : Fin 2) * 1 + 1 * (y 1).val = win0_3.index t (1 : Fin 2) * 1 + 1 * (y 1).val; rw [e21, e31]

/-- An index of the output array is in point t's block iff each coordinate is in the block's range on its axis. -/
theorem mem_blk (t : Fin cfg0.N) (i : S4096x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v37).slice (win0_3.rect t)).set ↔ _
  rw [View.set_slice_whole, Rect.mem_set_unit]
  exact Iff.rfl

/-- Every row of the output is written back by some point: row r by point r / 256. -/
theorem cover (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have ht : (i 0).val / 256 < cfg0.N := by rw [show cfg0.N = 16 from N_0]; omega
  obtain ⟨-, -, -, -, -, -, e30, e31⟩ := idx_facts ⟨(i 0).val / 256, ht⟩
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val
      ∧ (i 0).val < win0_3.index ⟨(i 0).val / 256, ht⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, ht⟩ (1 : Fin 2) * 1 ≤ (i 1).val
      ∧ (i 1).val < win0_3.index ⟨(i 0).val / 256, ht⟩ (1 : Fin 2) * 1 + 1
    rw [e31]; omega

theorem arr (c : Dev nD) :
    (dat0 (F := Ideal) V c).arrAt 3 cfg0.N
      = fun i : S4096x1.Idx => lsmPick (vecMat (rowOf (V c main_v31) (i 0)) (V c main_v32)) (V c main_v26 i) :=
  (dat0 (F := Ideal) V c).arrAt_eq_of_cover 3 (rowsOut V c) (fun t _ => flushed_eq V c t) cover

end Cert.KernelIdeal.Region0

end
-- ==== Proof.Region1Aux.lean ====
/-
  The arithmetic of the first tail's body at a row of its block.

  The body multiplies a 256 × 1024 block of hidden vectors by the 1024 × 256 matrix and the result by the
  256 × 8000 matrix (each product summed into a zero block; the change of format between them is the identity on
  the extended reals), which gives a 256 × 8000 block of scores. Per row it takes the maximum, the log of the sum
  of the shifted exponentials, and the entry whose column number equals the row's column word, found by a mask and
  a sum; the row's result is that entry less the maximum less the log, times the row's switch. Read at row p this
  is the mask-and-sum log-softmax of (row p of the block) · W1 · W2 at the row's word, times the row's switch.
-/
import proofs.«422491_j80461917323672_2_alg».proof.Proof.Gen.KernelIdeal.Skeleton
import proofs.«422491_j80461917323672_2_alg».proof.Proof.Spec
import Idealize.ShloMosaic.Lib.Pipeline.Value
import Idealize.ShloMosaic.PureOps.Ideal.Laws
import Idealize.ShloMosaic.Lib.ValueIdx

noncomputable section

namespace Cert.KernelIdeal.Region1

open Idealize.ShloMosaic Cert.KernelIdeal Cert.KernelIdeal.Gen Cert.Spec
open Idealize.ShloMosaic.ValueIdx
open scoped BigOperators

/-! ### Layout steps around a row-wise reduction kept as a column -/

section Layout
variable {α : Type}

/-- A vector of length a kept as an a × 1 column: its entry (p, u) is the vector's entry p. -/
theorem colCast_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An a × 1 column spread over b columns: its entry (p, k) is the column's entry (p, 0). -/
theorem colBroadcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Layout

/-! ### A reduction along the columns of an a × b block, read at a row -/

/-- The index of the block over row p with column k put back is (p, k). -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The sum along a row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The maximum along a row, from the accumulator's value. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (congrArg (fun f => (Finset.univ : Finset (Fin b)).fold max (Ideal.ofBits .f32 0xFF800000#32) f)
      (funext fun k => congrArg src (lift_row h p k)))

/-- The pattern of minus infinity is the bottom element. -/
theorem ofBits_neg_inf : Ideal.ofBits .f32 0xFF800000#32 = ⊥ := by simp [Ideal.ofBits, Ideal.ieee]

/-- The column number of an a × b block. -/
theorem colIota_apply {a b : ℕ} (h : (⟨2, ![a, b]⟩ : Shape).Iotas .tc 32 [1]) (p : Fin a) (k : Fin b) :
    iota .tc ⟨2, ![a, b]⟩ 32 [1] h (ix2 p k) = BitVec.ofNat 32 k.val :=
  iota_single_apply .tc ⟨2, ![a, b]⟩ 32 1 h (ix2 p k)

/-- A choice on the equality test of two words is a choice on their equality. -/
theorem select_cmpi_eq {α : Type} (u g : BitVec 32) (x y : α) :
    Scalar.select (IntOp.cmpi .eq u g) x y = if u = g then x else y := by
  unfold Scalar.select IntOp.cmpi
  by_cases e : u = g
  · simp [e]
  · have hb : (u == g) = false := beq_eq_false_iff_ne.mpr e
    simp [hb, e]

/-! ### The two block products, read at an entry

The operand indices of each product at an output entry and a contraction coordinate, axis by axis; then the
product into the zero block as the sum over the contraction coordinate. -/

theorem lhs_mm1_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem lhs_mm1_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem rhs_mm1_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem rhs_mm1_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

theorem lhs_mm2_0 (i : S256x8000.Idx) (q : dot_S256x256_S256x8000_S256x8000_1_0_0_1_n_n.contr.Idx) :
    (dot_S256x256_S256x8000_S256x8000_1_0_0_1_n_n.lhsIdx i q 0).val = (i 0).val := by
  unfold DotDims.lhsIdx
  rw [dif_neg (show ¬(0 : Fin S256x256.rank) ∈ dot_S256x256_S256x8000_S256x8000_1_0_0_1_n_n.lhsBatch by decide), dif_pos (show (0 : Fin S256x256.rank) ∈ dot_S256x256_S256x8000_S256x8000_1_0_0_1_n_n.lhsNonContracting by decide)]
  rfl
theorem lhs_mm2_1 (i : S256x8000.Idx) (q : dot_S256x256_S256x8000_S256x8000_1_0_0_1_n_n.contr.Idx) :
    (dot_S256x256_S256x8000_S256x8000_1_0_0_1_n_n.lhsIdx i q 1).val = (q ⟨0, by decide⟩).val :=
  dot_S256x256_S256x8000_S256x8000_1_0_0_1_n_n.lhsIdx_val_of_single rfl i q
theorem rhs_mm2_0 (i : S256x8000.Idx) (q : dot_S256x256_S256x8000_S256x8000_1_0_0_1_n_n.contr.Idx) :
    (dot_S256x256_S256x8000_S256x8000_1_0_0_1_n_n.rhsIdx i q 0).val = (q ⟨0, by decide⟩).val :=
  dot_S256x256_S256x8000_S256x8000_1_0_0_1_n_n.rhsIdx_val_of_single rfl i q
theorem rhs_mm2_1 (i : S256x8000.Idx) (q : dot_S256x256_S256x8000_S256x8000_1_0_0_1_n_n.contr.Idx) :
    (dot_S256x256_S256x8000_S256x8000_1_0_0_1_n_n.rhsIdx i q 1).val = (i 1).val := by
  unfold DotDims.rhsIdx
  rw [dif_neg (show ¬(1 : Fin S256x8000.rank) ∈ dot_S256x256_S256x8000_S256x8000_1_0_0_1_n_n.rhsBatch by decide), dif_pos (show (1 : Fin S256x8000.rank) ∈ dot_S256x256_S256x8000_S256x8000_1_0_0_1_n_n.rhsNonContracting by decide)]
  rfl

/-- The first product: a 256 × 1024 block times a 1024 × 256 matrix, entry (p, j). -/
theorem mm1_apply (x : FVec Ideal S256x1024 .bf16) (w : FVec Ideal S1024x256 .bf16) (p j : Fin 256) :
    matmul dot_S256x1024_S1024x256_S256x256_1_0_0_1_n_n none x w (constant S256x256 .f32 0x00000000#32) (ix2 p j)
      = ∑ d : Fin 1024, x (ix2 p d) * w (ix2 d j) := by
  simp only [matmul]
  rw [Ideal.matmul_constant_zero_apply, ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 p j) ((contrEquiv1 dot_S256x1024_S1024x256_S256x256_1_0_0_1_n_n 1024 rfl rfl).symm k) = ix2 p k := funext fun a => Fin.ext (by
    match a with
    | ⟨0, _⟩ => exact lhs_mm1_0 _ _
    | ⟨1, _⟩ => exact (lhs_mm1_1 _ _).trans hk)
  have er : dot_S256x1024_S1024x256_S256x256_1_0_0_1_n_n.rhsIdx (ix2 p j) ((contrEquiv1 dot_S256x1024_S1024x256_S256x256_1_0_0_1_n_n 1024 rfl rfl).symm k) = ix2 k j := funext fun a => Fin.ext (by
    match a with
    | ⟨0, _⟩ => exact (rhs_mm1_0 _ _).trans hk
    | ⟨1, _⟩ => exact rhs_mm1_1 _ _)
  rw [el, er]

/-- The second product: a 256 × 256 block times a 256 × 8000 matrix, entry (p, j). -/
theorem mm2_apply (x : FVec Ideal S256x256 .bf16) (w : FVec Ideal S256x8000 .bf16) (p : Fin 256) (j : Fin 8000) :
    matmul dot_S256x256_S256x8000_S256x8000_1_0_0_1_n_n none x w (constant S256x8000 .f32 0x00000000#32) (ix2 p j)
      = ∑ d : Fin 256, x (ix2 p d) * w (ix2 d j) := by
  simp only [matmul]
  rw [Ideal.matmul_constant_zero_apply, ← Equiv.sum_comp (contrEquiv1 dot_S256x256_S256x8000_S256x8000_1_0_0_1_n_n 256 rfl rfl).symm]
  refine Finset.sum_congr rfl fun k _ => ?_
  have hk := contrEquiv1_symm_val dot_S256x256_S256x8000_S256x8000_1_0_0_1_n_n 256 rfl rfl k
  have el : dot_S256x256_S256x8000_S256x8000_1_0_0_1_n_n.lhsIdx (ix2 p j) ((contrEquiv1 dot_S256x256_S256x8000_S256x8000_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S256x256_S256x8000_S256x8000_1_0_0_1_n_n.rhsIdx (ix2 p j) ((contrEquiv1 dot_S256x256_S256x8000_S256x8000_1_0_0_1_n_n 256 rfl rfl).symm k) = ix2 k j := funext fun a => Fin.ext (by
    match a with
    | ⟨0, _⟩ => exact (rhs_mm2_0 _ _).trans hk
    | ⟨1, _⟩ => exact rhs_mm2_1 _ _)
  rw [el, er]

/-- Both products in a row: the 256 × 8000 block of scores, entry (p, j), is the row p of the first operand
    times the first matrix, times the second matrix, at column j (the change of format between them is the
    identity on the extended reals). -/
theorem scores_apply (x0 : FVec Ideal S256x1024 .bf16) (x1 : FVec Ideal S1024x256 .bf16) (x2 : FVec Ideal S256x8000 .bf16)
    (p : Fin 256) (j : Fin 8000) :
    matmul dot_S256x256_S256x8000_S256x8000_1_0_0_1_n_n none
        (truncf .bf16 (matmul dot_S256x1024_S1024x256_S256x256_1_0_0_1_n_n none x0 x1 (constant S256x256 .f32 0x00000000#32)) bitsLt_bf16_f32)
        x2 (constant S256x8000 .f32 0x00000000#32) (ix2 p j)
      = vecMat (vecMat (fun d : Fin 1024 => x0 (ix2 p d)) x1) x2 j := by
  rw [mm2_apply]
  unfold vecMat
  refine Finset.sum_congr rfl fun d _ => ?_
  rw [truncf_apply, mm1_apply]

/-! ### The pointwise steps -/

theorem log_apply {s : Shape} (x : FVec Ideal s .f32) (i : s.Idx) : Idealize.ShloMosaic.log x i = Ideal.log (x i) := rfl

/-- The sum along a row of a 256 × 8000 block. -/
theorem blockRowSum (src : FVec Ideal S256x8000 .f32) (h : S256x8000.Reduces [1] S256)
    (hφ : FKind.Formats .f32) (hacc : (0x00000000#32 : BitVec 32) = 0x00000000#32) (p : Fin 256) :
    multiReduction .add [1] S256 src 0x00000000#32 h hφ hacc (ix1 p) = ∑ k : Fin 8000, src (ix2 p k) :=
  rowSum_apply src h hφ hacc p

/-- The maximum along a row of a 256 × 8000 block, from the bottom element. -/
theorem blockRowMax (src : FVec Ideal S256x8000 .f32) (h : S256x8000.Reduces [1] S256)
    (hφ : FKind.Formats .f32) (hacc : (0xFF800000#32 : BitVec 32) = 0xFF800000#32) (p : Fin 256) :
    multiReduction .maximumf [1] S256 src 0xFF800000#32 h hφ hacc (ix1 p)
      = (Finset.univ : Finset (Fin 8000)).fold max ⊥ (fun k => src (ix2 p k)) :=
  (rowMax_apply src h hφ hacc p).trans (by rw [ofBits_neg_inf])

/-! ### The body's arithmetic at a row of the block -/

/-- Row p of the body's result: the log-softmax of the row of scores, its column found by mask and sum at the
    row's column word, times the row's switch. -/
theorem pay_apply (x0 : Vec Ideal S256x1024 .bf16) (x1 : Vec Ideal S1024x256 .bf16) (x2 : Vec Ideal S256x8000 .bf16)
    (x3 : Vec Ideal S256x1 .i32) (x4 : Vec Ideal S256x1 .f32) (p : Fin 256) (q : Fin 1) :
    k1_pay1 x0 x1 x2 x3 x4 (ix2 p q)
      = lsmPick (vecMat (vecMat (fun d : Fin 1024 => x0 (ix2 p d)) x1) x2) (x3 (ix2 p q)) * x4 (ix2 p q) := by
  obtain rfl : q = 0 := Subsingleton.elim _ _
  unfold k1_pay1
  simp only [shapeCast_self]
  -- the block of scores, known only through its rows
  have hZ := fun j : Fin 8000 => scores_apply x0 x1 x2 p j
  generalize matmul (F := Ideal) dot_S256x256_S256x8000_S256x8000_1_0_0_1_n_n none
        (truncf (F := Ideal) .bf16 (matmul (F := Ideal) dot_S256x1024_S1024x256_S256x256_1_0_0_1_n_n none x0 x1 (constant S256x256 .f32 0x00000000#32)) bitsLt_bf16_f32)
        x2 (constant S256x8000 .f32 0x00000000#32) = Z at hZ ⊢
  have hl : (fun k : Fin 8000 => Z (ix2 p k)) = vecMat (vecMat (fun d : Fin 1024 => x0 (ix2 p d)) x1) x2 := funext hZ
  -- the three reductions, each kept as a column and read at row p
  simp only [mulf_apply, subf_apply, log_apply, colCast_apply]
  rw [blockRowMax, blockRowSum, blockRowSum]
  unfold lsmPick pick rowLse rowMax
  refine congrArg (· * x4 (ix2 p 0)) (congrArg₂ (· - ·) (congrArg₂ (· - ·) ?_ ?_) (congrArg Ideal.log ?_))
  · -- the masked sum picks the entry whose column number is the row's word
    refine Finset.sum_congr rfl fun k _ => ?_
    show Scalar.select (IntOp.cmpi .eq (iota .tc S256x8000 32 [1] iota_S256x8000_d1_w32 (ix2 p k))
        (broadcastTo S256x8000 x3 broadcasts_S256x1_S256x8000 (ix2 p k))) (Z (ix2 p k)) (Ideal.ofBits .f32 0x00000000#32) = _
    rw [colIota_apply, colBroadcast_apply, select_cmpi_eq, hZ, Ideal.ofBits_zero_f32]
  · rw [hl]
  · -- the shifted exponentials
    refine Finset.sum_congr rfl fun k _ => ?_
    show Ideal.exp (Z (ix2 p k) - broadcastTo S256x8000 _ broadcasts_S256x1_S256x8000 (ix2 p k)) = _
    rw [colBroadcast_apply, colCast_apply, blockRowMax, hl, hZ]

end Cert.KernelIdeal.Region1

end
-- ==== Proof.Region1.lean ====
/-
  The value of the first tail's call: the output array after the call, as one function of the arrays the call finds.

  A grid point t takes rows 256 t … 256 t + 255 of the hidden vectors, of the column words and of the switch, and both
  matrices whole; its body leaves, in row p of the output block, the mask-and-sum log-softmax of
  (row p of the block) · W1 · W2 at the row's column word, times the row's switch. The sixteen output blocks tile
  the 4096 rows, block r / 256 holding row r, so row r of the output array is that expression of row r of the arrays.
-/
import proofs.«422491_j80461917323672_2_alg».proof.Proof.Gen.KernelIdeal.Frame
import proofs.«422491_j80461917323672_2_alg».proof.Proof.Spec
import proofs.«422491_j80461917323672_2_alg».proof.Proof.Region1Aux

noncomputable section

namespace Cert.KernelIdeal.Region1

open Idealize.ShloMosaic Idealize.ShloMosaic.TcCoe Idealize.SL.Sem Cert.KernelIdeal Cert.KernelIdeal.Gen Cert.Spec
open Idealize.ShloMosaic.ValueIdx

/-! ### From blocks to the array -/

theorem hz : (![0, 0] : Fin 2 → Nat) = fun _ => 0 := funext fun a => by fin_cases a <;> rfl

/-- The printed index maps over the 16 grid points: the blocks of the hidden vectors, of the column words, of the
    switch and of the output are block t of their arrays' rows; the two matrices are whole. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = win1_5.index t (0 : Fin 2) ∧ win1_3.index t (1 : Fin 2) = 0
    ∧ win1_4.index t (0 : Fin 2) = win1_5.index t (0 : Fin 2) ∧ win1_4.index t (1 : Fin 2) = 0
    ∧ win1_5.index t (0 : Fin 2) = t.val ∧ win1_5.index t (1 : Fin 2) = 0 :=
  (by decide +kernel : ∀ t : Fin grid1.N, _)

/-- Row p of the body's result on blocks that are, row by row, pieces of five arrays: the hidden vectors' block
    holds rows of X starting where the output's row i lies, the two matrices are whole, and the column word and
    the switch are those of row i. -/
theorem point_eq (X : S4096x1024.Idx → EReal) (W1 : S1024x256.Idx → EReal) (W2 : S256x8000.Idx → EReal)
    (T : S4096x1.Idx → BitVec 32) (S : S4096x1.Idx → EReal)
    (x0 : Vec Ideal S256x1024 .bf16) (x1 : Vec Ideal S1024x256 .bf16) (x2 : Vec Ideal S256x8000 .bf16)
    (x3 : Vec Ideal S256x1 .i32) (x4 : Vec Ideal S256x1 .f32) (p : Fin 256) (q : Fin 1) (i : S4096x1.Idx)
    (h0 : ∀ d : Fin 1024, x0 (ix2 p d) = X (ix2 (i 0) d)) (h1 : x1 = W1) (h2 : x2 = W2)
    (h3 : x3 (ix2 p q) = T i) (h4 : x4 (ix2 p q) = S i) :
    k1_pay1 x0 x1 x2 x3 x4 (ix2 p q) = lsmPick (vecMat (vecMat (rowOf X (i 0)) W1) W2) (T i) * S i := by
  have hrow : (fun d : Fin 1024 => x0 (ix2 p d)) = rowOf X (i 0) := funext h0
  rw [pay_apply, h3, h4, hrow, h1, h2]

variable (V : (c : Dev nD) → (b : Ref sig .tc) → Buf (Elt Ideal) ((c : Thread nD τ).loc b))

theorem flushed_eq (c : Dev nD) (t : Fin cfg1.N) :
    (dat1 (F := Ideal) V c).flushed 5 t = ((cfg1.win 5).blk t).view.read (Elt Ideal)
      (fun i : S4096x1.Idx =>
        lsmPick (vecMat (vecMat (rowOf (V c main_v31) (i 0)) (V c main_v33)) (V c main_v34)) (V c main_v27 i) * V c main_v29 i) := by
  show (cfg1.win 5).cut (grid1.coords t) ((dat1 (F := Ideal) V c).after 5 t) = _
  rw [after1_5]
  unfold out1_5
  rw [View.canon_unit_zero hz]
  simp only [View.ld_unit_zero (S := S256x1024) hz, View.ld_unit_zero (S := S1024x256) hz, View.ld_unit_zero (S := S256x8000) hz, View.ld_unit_zero (S := S256x1) hz]
  obtain ⟨e00, e01, e10, e11, e20, e21, e30, e31, e40, e41, e50, e51⟩ := idx_facts t
  refine funext fun y => ?_
  obtain ⟨p, q, rfl⟩ : ∃ (p : Fin 256) (q : Fin 1), y = ix2 p q := ⟨y 0, y 1, eq_ix2 y⟩
  refine point_eq (V c main_v31) (V c main_v33) (V c main_v34) (V c main_v27) (V c main_v29)
    (iblk1 V c 0 t) (iblk1 V c 1 t) (iblk1 V c 2 t) (iblk1 V c 3 t) (iblk1 V c 4 t) p q
    (((cfg1.win 5).blk t).view.emb (ix2 p q)) ?_ ?_ ?_ ?_ ?_
  · -- the hidden vectors' block: rows of the array from the output block's first row on
    intro d
    show V c main_v31 (((cfg1.win 0).blk t).view.emb (ix2 p d)) = V c main_v31 _
    refine congrArg (V c main_v31) (funext fun a => Fin.ext ?_)
    match a with
    | ⟨0, _⟩ => show win1_0.index t (0 : Fin 2) * 256 + 1 * p.val = win1_5.index t (0 : Fin 2) * 256 + 1 * p.val; rw [e00]
    | ⟨1, _⟩ => show win1_0.index t (1 : Fin 2) * 1024 + 1 * d.val = d.val; rw [e01]; omega
  · -- the first matrix, whole
    refine funext fun z => ?_
    show V c main_v33 (((cfg1.win 1).blk t).view.emb z) = V c main_v33 z
    refine congrArg (V c main_v33) (funext fun a => Fin.ext ?_)
    match a with
    | ⟨0, _⟩ => show win1_1.index t (0 : Fin 2) * 1024 + 1 * (z 0).val = (z 0).val; rw [e10]; omega
    | ⟨1, _⟩ => show win1_1.index t (1 : Fin 2) * 256 + 1 * (z 1).val = (z 1).val; rw [e11]; omega
  · -- the second matrix, whole
    refine funext fun z => ?_
    show V c main_v34 (((cfg1.win 2).blk t).view.emb z) = V c main_v34 z
    refine congrArg (V c main_v34) (funext fun a => Fin.ext ?_)
    match a with
    | ⟨0, _⟩ => show win1_2.index t (0 : Fin 2) * 256 + 1 * (z 0).val = (z 0).val; rw [e20]; omega
    | ⟨1, _⟩ => show win1_2.index t (1 : Fin 2) * 8000 + 1 * (z 1).val = (z 1).val; rw [e21]; omega
  · -- the column words' block moves with the output's
    show V c main_v27 (((cfg1.win 3).blk t).view.emb (ix2 p q)) = V c main_v27 _
    refine congrArg (V c main_v27) (funext fun a => Fin.ext ?_)
    match a with
    | ⟨0, _⟩ => show win1_3.index t (0 : Fin 2) * 256 + 1 * p.val = win1_5.index t (0 : Fin 2) * 256 + 1 * p.val; rw [e30]
    | ⟨1, _⟩ => show win1_3.index t (1 : Fin 2) * 1 + 1 * q.val = win1_5.index t (1 : Fin 2) * 1 + 1 * q.val; rw [e31, e51]
  · -- and so does the switch's
    show V c main_v29 (((cfg1.win 4).blk t).view.emb (ix2 p q)) = V c main_v29 _
    refine congrArg (V c main_v29) (funext fun a => Fin.ext ?_)
    match a with
    | ⟨0, _⟩ => show win1_4.index t (0 : Fin 2) * 256 + 1 * p.val = win1_5.index t (0 : Fin 2) * 256 + 1 * p.val; rw [e40]
    | ⟨1, _⟩ => show win1_4.index t (1 : Fin 2) * 1 + 1 * q.val = win1_5.index t (1 : Fin 2) * 1 + 1 * q.val; rw [e41, e51]

/-- An index of the output array is in point t's block iff each coordinate is in the block's range on its axis. -/
theorem mem_blk (t : Fin cfg1.N) (i : S4096x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v38).slice (win1_5.rect t)).set ↔ _
  rw [View.set_slice_whole, Rect.mem_set_unit]
  exact Iff.rfl

/-- Row r of the output lies in the block of point r / 256, and every point writes its block back. -/
theorem cover (i : S4096x1.Idx) :
    ∃ t : Fin cfg1.N, (cfg1.win 5).flush t = true ∧ i ∈ ((cfg1.win 5).blk t).view.set := by
  have hi0 : (i 0).val < 4096 := (i 0).isLt
  have hi1 : (i 1).val < 1 := (i 1).isLt
  have hN : cfg1.N = 16 := N_1
  obtain ⟨t, ht⟩ : ∃ t : Fin cfg1.N, t.val = (i 0).val / 256 := ⟨⟨(i 0).val / 256, by rw [hN]; omega⟩, rfl⟩
  obtain ⟨-, -, -, -, -, -, -, -, -, -, e50, e51⟩ := idx_facts t
  refine ⟨t, flush1_5 t, ?_⟩
  rw [mem_blk]
  intro a
  match a with
  | ⟨0, _⟩ =>
    show win1_5.index t (0 : Fin 2) * 256 ≤ (i 0).val ∧ (i 0).val < win1_5.index t (0 : Fin 2) * 256 + 256
    rw [e50, ht]; omega
  | ⟨1, _⟩ =>
    show win1_5.index t (1 : Fin 2) * 1 ≤ (i 1).val ∧ (i 1).val < win1_5.index t (1 : Fin 2) * 1 + 1
    rw [e51]; omega

theorem arr (c : Dev nD) :
    (dat1 (F := Ideal) V c).arrAt 5 cfg1.N
      = fun i : S4096x1.Idx =>
          lsmPick (vecMat (vecMat (rowOf (V c main_v31) (i 0)) (V c main_v33)) (V c main_v34)) (V c main_v27 i) * V c main_v29 i :=
  (dat1 (F := Ideal) V c).arrAt_eq_of_cover 5 _ (fun t _ => flushed_eq V c t) cover

end Cert.KernelIdeal.Region1

end
-- ==== Proof.Region2.lean ====
/-
  The second tail's kernel: its result as one function of the arrays it reads.

  Each grid point takes 128 rows of the hidden vectors, the two whole tail matrices, the rows' column words and the
  rows' 0 / 1 switches, and leaves 128 results. For a row with hidden vector x the body forms the scores
  l = (x · W1) · W2 (22000 columns), their maximum M, the log of the sum of exp (l j - M), and the entry of l whose
  column word is the row's word g, found as the sum over all columns j of (l j if the word of j is g, else 0); the
  result is ((that entry - M) - that log) times the row's switch: the log-softmax of the row at g by mask and sum,
  switched. The 32 points' blocks of 128 rows tile the 4096 rows, so the output array after the region is that
  function of the row, for every row.
-/
import proofs.«422491_j80461917323672_2_alg».proof.Proof.Gen.KernelIdeal.Frame
import proofs.«422491_j80461917323672_2_alg».proof.Proof.Spec
import Idealize.ShloMosaic.Lib.Pipeline.Value
import Idealize.ShloMosaic.Lib.ValueLayout
import Idealize.ShloMosaic.PureOps.Ideal.Laws

noncomputable section

namespace Cert.KernelIdeal.Region2

open Idealize.ShloMosaic Idealize.ShloMosaic.TcCoe Idealize.SL.Sem Cert.KernelIdeal Cert.KernelIdeal.Gen Cert.Spec
open Idealize.ShloMosaic.ValueIdx
open scoped BigOperators

variable (V : (c : Dev nD) → (b : Ref sig .tc) → Buf (Elt Ideal) ((c : Thread nD τ).loc b))

/-! ### Layout steps of a row-wise reduction kept as a column -/

section Layout
variable {α : Type}

/-- A vector of length a viewed as an a × 1 column reads, at (p, q), the vector at p. -/
theorem shapeCast_a_a1_apply {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    rw [hq, Nat.mul_one, Nat.add_zero])

/-- An a × 1 column broadcast along the rows to a × b reads, at (p, j), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (j : Fin b) : broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

end Layout

/-! ### The row reductions read as sums and folds over the row's columns -/

/-- A sum over axis 1 of an a × b array, at row p, is the sum of the row's entries. -/
theorem rowSum_apply {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

/-- A maximum over axis 1 of an a × b array from the least element, at row p, is the fold of max over the row's entries. -/
theorem rowMax_apply {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0xFF800000#32 : BitVec 32) = 0xFF800000#32) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  have e : (FloatOps.ofBits (F := Ideal) .f32 0xFF800000#32 : EReal) = ⊥ := by
    show Ideal.ofBits .f32 0xFF800000#32 = ⊥
    simp [Ideal.ofBits, Ideal.ieee]
  rw [e]
  refine congrArg (Finset.fold max ⊥ · Finset.univ) (funext fun k => congrArg src (funext fun ax => Fin.ext (by
      match ax with
      | ⟨0, _⟩ => rfl
      | ⟨1, _⟩ => rfl)))

/-! ### The two products read as sums over the contracted axis -/

/-- The first product's operand indices: the left factor is read at (row of the result, contracted coordinate), -/
theorem lhsA_0 (i : S128x64.Idx) (q : dot_S128x1024_S1024x64_S128x64_1_0_0_1_n_n.contr.Idx) :
    (dot_S128x1024_S1024x64_S128x64_1_0_0_1_n_n.lhsIdx i q 0).val = (i 0).val := by
  unfold DotDims.lhsIdx
  rw [dif_neg (show ¬(0 : Fin S128x1024.rank) ∈ dot_S128x1024_S1024x64_S128x64_1_0_0_1_n_n.lhsBatch by decide), dif_pos (show (0 : Fin S128x1024.rank) ∈ dot_S128x1024_S1024x64_S128x64_1_0_0_1_n_n.lhsNonContracting by decide)]
  rfl
theorem lhsA_1 (i : S128x64.Idx) (q : dot_S128x1024_S1024x64_S128x64_1_0_0_1_n_n.contr.Idx) :
    (dot_S128x1024_S1024x64_S128x64_1_0_0_1_n_n.lhsIdx i q 1).val = (q ⟨0, by decide⟩).val :=
  dot_S128x1024_S1024x64_S128x64_1_0_0_1_n_n.lhsIdx_val_of_single rfl i q
/-- the right factor at (contracted coordinate, column of the result). -/
theorem rhsA_0 (i : S128x64.Idx) (q : dot_S128x1024_S1024x64_S128x64_1_0_0_1_n_n.contr.Idx) :
    (dot_S128x1024_S1024x64_S128x64_1_0_0_1_n_n.rhsIdx i q 0).val = (q ⟨0, by decide⟩).val :=
  dot_S128x1024_S1024x64_S128x64_1_0_0_1_n_n.rhsIdx_val_of_single rfl i q
theorem rhsA_1 (i : S128x64.Idx) (q : dot_S128x1024_S1024x64_S128x64_1_0_0_1_n_n.contr.Idx) :
    (dot_S128x1024_S1024x64_S128x64_1_0_0_1_n_n.rhsIdx i q 1).val = (i 1).val := by
  unfold DotDims.rhsIdx
  rw [dif_neg (show ¬(1 : Fin S1024x64.rank) ∈ dot_S128x1024_S1024x64_S128x64_1_0_0_1_n_n.rhsBatch by decide), dif_pos (show (1 : Fin S1024x64.rank) ∈ dot_S128x1024_S1024x64_S128x64_1_0_0_1_n_n.rhsNonContracting by decide)]
  rfl

/-- The first product into a zero accumulator, at (p, j): the sum over the 1024 hidden coordinates. -/
theorem mmA_apply (l : FVec Ideal S128x1024 .bf16) (r : FVec Ideal S1024x64 .bf16) (p : Fin 128) (j : Fin 64) :
    matmul dot_S128x1024_S1024x64_S128x64_1_0_0_1_n_n none l r (constant (F := Ideal) S128x64 .f32 0x00000000#32) (ix2 p j)
      = ∑ k : Fin 1024, l (ix2 p k) * r (ix2 k j) := by
  simp only [matmul]
  rw [Ideal.matmul_constant_zero_apply, ← Equiv.sum_comp (ValueIdx.contrEquiv1 dot_S128x1024_S1024x64_S128x64_1_0_0_1_n_n 1024 rfl rfl).symm]
  refine Finset.sum_congr rfl fun k _ => ?_
  have hk := ValueIdx.contrEquiv1_symm_val dot_S128x1024_S1024x64_S128x64_1_0_0_1_n_n 1024 rfl rfl k
  have el : dot_S128x1024_S1024x64_S128x64_1_0_0_1_n_n.lhsIdx (ix2 p j) ((ValueIdx.contrEquiv1 dot_S128x1024_S1024x64_S128x64_1_0_0_1_n_n 1024 rfl rfl).symm k) = ix2 p k := funext fun a => Fin.ext (by
    match a with
    | ⟨0, _⟩ => exact lhsA_0 _ _
    | ⟨1, _⟩ => exact (lhsA_1 _ _).trans hk)
  have er : dot_S128x1024_S1024x64_S128x64_1_0_0_1_n_n.rhsIdx (ix2 p j) ((ValueIdx.contrEquiv1 dot_S128x1024_S1024x64_S128x64_1_0_0_1_n_n 1024 rfl rfl).symm k) = ix2 k j := funext fun a => Fin.ext (by
    match a with
    | ⟨0, _⟩ => exact (rhsA_0 _ _).trans hk
    | ⟨1, _⟩ => exact rhsA_1 _ _)
  rw [el, er]

/-- The second product's operand indices: the left factor is read at (row of the result, contracted coordinate), -/
theorem lhsB_0 (i : S128x22000.Idx) (q : dot_S128x64_S64x22000_S128x22000_1_0_0_1_n_n.contr.Idx) :
    (dot_S128x64_S64x22000_S128x22000_1_0_0_1_n_n.lhsIdx i q 0).val = (i 0).val := by
  unfold DotDims.lhsIdx
  rw [dif_neg (show ¬(0 : Fin S128x64.rank) ∈ dot_S128x64_S64x22000_S128x22000_1_0_0_1_n_n.lhsBatch by decide), dif_pos (show (0 : Fin S128x64.rank) ∈ dot_S128x64_S64x22000_S128x22000_1_0_0_1_n_n.lhsNonContracting by decide)]
  rfl
theorem lhsB_1 (i : S128x22000.Idx) (q : dot_S128x64_S64x22000_S128x22000_1_0_0_1_n_n.contr.Idx) :
    (dot_S128x64_S64x22000_S128x22000_1_0_0_1_n_n.lhsIdx i q 1).val = (q ⟨0, by decide⟩).val :=
  dot_S128x64_S64x22000_S128x22000_1_0_0_1_n_n.lhsIdx_val_of_single rfl i q
/-- the right factor at (contracted coordinate, column of the result). -/
theorem rhsB_0 (i : S128x22000.Idx) (q : dot_S128x64_S64x22000_S128x22000_1_0_0_1_n_n.contr.Idx) :
    (dot_S128x64_S64x22000_S128x22000_1_0_0_1_n_n.rhsIdx i q 0).val = (q ⟨0, by decide⟩).val :=
  dot_S128x64_S64x22000_S128x22000_1_0_0_1_n_n.rhsIdx_val_of_single rfl i q
theorem rhsB_1 (i : S128x22000.Idx) (q : dot_S128x64_S64x22000_S128x22000_1_0_0_1_n_n.contr.Idx) :
    (dot_S128x64_S64x22000_S128x22000_1_0_0_1_n_n.rhsIdx i q 1).val = (i 1).val := by
  unfold DotDims.rhsIdx
  rw [dif_neg (show ¬(1 : Fin S64x22000.rank) ∈ dot_S128x64_S64x22000_S128x22000_1_0_0_1_n_n.rhsBatch by decide), dif_pos (show (1 : Fin S64x22000.rank) ∈ dot_S128x64_S64x22000_S128x22000_1_0_0_1_n_n.rhsNonContracting by decide)]
  rfl

/-- The second product into a zero accumulator, at (p, j): the sum over the 64 bottleneck coordinates. -/
theorem mmB_apply (l : FVec Ideal S128x64 .bf16) (r : FVec Ideal S64x22000 .bf16) (p : Fin 128) (j : Fin 22000) :
    matmul dot_S128x64_S64x22000_S128x22000_1_0_0_1_n_n none l r (constant (F := Ideal) S128x22000 .f32 0x00000000#32) (ix2 p j)
      = ∑ k : Fin 64, l (ix2 p k) * r (ix2 k j) := by
  simp only [matmul]
  rw [Ideal.matmul_constant_zero_apply, ← Equiv.sum_comp (ValueIdx.contrEquiv1 dot_S128x64_S64x22000_S128x22000_1_0_0_1_n_n 64 rfl rfl).symm]
  refine Finset.sum_congr rfl fun k _ => ?_
  have hk := ValueIdx.contrEquiv1_symm_val dot_S128x64_S64x22000_S128x22000_1_0_0_1_n_n 64 rfl rfl k
  have el : dot_S128x64_S64x22000_S128x22000_1_0_0_1_n_n.lhsIdx (ix2 p j) ((ValueIdx.contrEquiv1 dot_S128x64_S64x22000_S128x22000_1_0_0_1_n_n 64 rfl rfl).symm k) = ix2 p k := funext fun a => Fin.ext (by
    match a with
    | ⟨0, _⟩ => exact lhsB_0 _ _
    | ⟨1, _⟩ => exact (lhsB_1 _ _).trans hk)
  have er : dot_S128x64_S64x22000_S128x22000_1_0_0_1_n_n.rhsIdx (ix2 p j) ((ValueIdx.contrEquiv1 dot_S128x64_S64x22000_S128x22000_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-! ### A choice on equality of two words -/

/-- A choice between x and 0 on the bit "a equals g" is x when a = g and 0 otherwise. -/
theorem select_eq_ite (a g : BitVec 32) (x : EReal) :
    Scalar.select (IntOp.cmpi .eq a g) x (Ideal.ofBits .f32 0x00000000#32) = if a = g then x else 0 := by
  rw [Ideal.ofBits_zero_f32]
  by_cases h : a = g
  · subst h; rw [if_pos rfl]; simp [Scalar.select, IntOp.cmpi]
  · rw [if_neg h]
    have hb : (a == g) = false := beq_false_of_ne h
    simp [Scalar.select, IntOp.cmpi, hb]

/-! ### The body's arithmetic at a row of the block -/

section Pointwise
variable {s : Shape} {φ : FTy}
/-- An exponential at an index is the exponential of the element. -/
theorem exp_apply (a : FVec Ideal s φ) (i : s.Idx) : exp a i = Ideal.exp (a i) := rfl
/-- A logarithm at an index is the logarithm of the element. -/
theorem log_apply (a : FVec Ideal s φ) (i : s.Idx) : log a i = Ideal.log (a i) := rfl
/-- A comparison of words at an index compares the elements. -/
theorem cmpi_apply {w : ℕ} (pr : CmpIPredicate) (a b : IVec s w) (i : s.Idx) : cmpi pr a b i = IntOp.cmpi pr (a i) (b i) := rfl
end Pointwise

/-- The column index along the second axis of a 128 × 22000 array, at (p, j), is the word of j. -/
theorem iota_col_apply (h : S128x22000.Iotas .tc 32 [1]) (p : Fin 128) (j : Fin 22000) :
    iota .tc S128x22000 32 [1] h (ix2 p j) = BitVec.ofNat 32 j.val :=
  iota_single_apply .tc S128x22000 32 1 h (ix2 p j)

/-- The body's arithmetic at row p of a block: with l the row's scores (x · W1) · W2, the entry of l at the row's column
    word found by mask and sum, less the row maximum, less the log of the sum of shifted exponentials, times the switch. -/
theorem pay_apply (x0 : Vec Ideal S128x1024 .bf16) (x1 : Vec Ideal S1024x64 .bf16) (x2 : Vec Ideal S64x22000 .bf16)
    (x3 : Vec Ideal S128x1 .i32) (x4 : Vec Ideal S128x1 .f32) (p : Fin 128) (q : Fin 1) :
    k2_pay1 (F := Ideal) x0 x1 x2 x3 x4 (ix2 p q)
      = lsmPick (vecMat (vecMat (fun d => x0 (ix2 p d)) x1) x2) (x3 (ix2 p q)) * x4 (ix2 p q) := by
  obtain rfl : q = 0 := Subsingleton.elim _ _
  have hs : ∀ j : Fin 22000,
      matmul dot_S128x64_S64x22000_S128x22000_1_0_0_1_n_n none
        (truncf .bf16 (matmul dot_S128x1024_S1024x64_S128x64_1_0_0_1_n_n none x0 x1 (constant (F := Ideal) S128x64 .f32 0x00000000#32)) bitsLt_bf16_f32)
        x2 (constant (F := Ideal) S128x22000 .f32 0x00000000#32) (ix2 p j)
      = vecMat (vecMat (fun d => x0 (ix2 p d)) x1) x2 j := fun j => by
    rw [mmB_apply]
    show _ = ∑ k : Fin 64, vecMat (fun d => x0 (ix2 p d)) x1 k * x2 (ix2 k j)
    refine Finset.sum_congr rfl fun k _ => ?_
    rw [truncf_apply, mmA_apply]
    rfl
  unfold k2_pay1
  dsimp only
  simp only [shapeCast_self]
  generalize matmul dot_S128x64_S64x22000_S128x22000_1_0_0_1_n_n none
        (truncf .bf16 (matmul dot_S128x1024_S1024x64_S128x64_1_0_0_1_n_n none x0 x1 (constant (F := Ideal) S128x64 .f32 0x00000000#32)) bitsLt_bf16_f32)
        x2 (constant (F := Ideal) S128x22000 .f32 0x00000000#32) = sc at hs ⊢
  have hl : vecMat (vecMat (fun d => x0 (ix2 p d)) x1) x2 = fun j => sc (ix2 p j) := funext fun j => (hs j).symm
  rw [hl]
  simp only [mulf_apply, subf_apply, log_apply, shapeCast_a_a1_apply]
  rw [rowSum_apply _ _ _ _ p, rowSum_apply _ _ _ _ p]
  simp only [exp_apply, subf_apply, select_apply, cmpi_apply, broadcastTo_a1_ab_apply, shapeCast_a_a1_apply, iota_col_apply, broadcast_apply]
  rw [rowMax_apply sc _ _ _ p]
  have hp : ∀ k : Fin 22000,
      Scalar.select (IntOp.cmpi .eq (iota .tc S128x22000 32 [1] iota_S128x22000_d1_w32 (ix2 p k)) (x3 (ix2 p 0)))
          (sc (ix2 p k)) (FloatOps.ofBits (F := Ideal) .f32 0x00000000#32)
        = if BitVec.ofNat 32 k.val = x3 (ix2 p 0) then sc (ix2 p k) else 0 := fun k => by
    rw [iota_col_apply]; exact select_eq_ite _ _ _
  rw [Finset.sum_congr rfl fun k _ => hp k]
  rfl

/-! ### From the blocks to the array -/

/-- The zero offsets of a whole-block access. -/
theorem hz : (![0, 0] : Fin 2 → Nat) = fun _ => 0 := funext fun a => by fin_cases a <;> rfl

/-- The output array as one function of the arrays the region finds: row r holds the log-softmax of the
    second tail's scores of row r at the row's column word, times the row's switch. -/
abbrev rowsOut (c : Dev nD) : S4096x1.Idx → EReal := fun i =>
  lsmPick (vecMat (vecMat (rowOf (V c main_v31) (i 0)) (V c main_v35)) (V c main_v36)) (V c main_v28 i) * V c main_v30 i

/-- One row of one block: when the block's reads are the arrays' at row r, the body's arithmetic at row p of the block is
    the array function at row r. -/
theorem point_eq (A0 : S4096x1024.Idx → EReal) (A1 : S1024x64.Idx → EReal) (A2 : S64x22000.Idx → EReal)
    (A3 : S4096x1.Idx → BitVec 32) (A4 : S4096x1.Idx → EReal)
    (x0 : Vec Ideal S128x1024 .bf16) (x1 : Vec Ideal S1024x64 .bf16) (x2 : Vec Ideal S64x22000 .bf16)
    (x3 : Vec Ideal S128x1 .i32) (x4 : Vec Ideal S128x1 .f32) (p : Fin 128) (q : Fin 1) (r : Fin 4096) (u : Fin 1)
    (h0 : ∀ d : Fin 1024, x0 (ix2 p d) = A0 (ix2 r d)) (h1 : x1 = A1) (h2 : x2 = A2)
    (h3 : x3 (ix2 p q) = A3 (ix2 r u)) (h4 : x4 (ix2 p q) = A4 (ix2 r u)) :
    k2_pay1 (F := Ideal) x0 x1 x2 x3 x4 (ix2 p q)
      = lsmPick (vecMat (vecMat (rowOf A0 r) A1) A2) (A3 (ix2 r u)) * A4 (ix2 r u) := by
  rw [pay_apply, h3, h4, h1, h2, show (fun d => x0 (ix2 p d)) = rowOf A0 r from funext h0]

/-- The printed index maps over the grid: the row-blocked windows move with the point, the whole-array windows stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point t writes back is block t of the array function. -/
theorem flushed_eq (c : Dev nD) (t : Fin cfg2.N) :
    (dat2 (F := Ideal) V c).flushed 5 t = ((cfg2.win 5).blk t).view.read (Elt Ideal) (rowsOut V c) := by
  show (cfg2.win 5).cut (grid2.coords t) ((dat2 V c).after 5 t) = _
  rw [after2_5]
  unfold out2_5
  rw [View.canon_unit_zero hz]
  simp only [View.ld_unit_zero (S := S128x1024) hz, View.ld_unit_zero (S := S1024x64) hz,
    View.ld_unit_zero (S := S64x22000) hz, View.ld_unit_zero (S := S128x1) hz]
  obtain ⟨e00, e01, e10, e11, e20, e21, e30, e31, e40, e41, e50, e51⟩ := idx_facts t
  have hN : cfg2.N = 32 := N_2
  have ht : t.val < 32 := hN ▸ t.isLt
  funext j
  obtain ⟨p, q, rfl⟩ : ∃ (p : Fin 128) (q : Fin 1), j = ix2 p q := ⟨j 0, j 1, eq_ix2 j⟩
  have hp : p.val < 128 := p.isLt
  have hq : q.val < 1 := q.isLt
  have hemb : ((cfg2.win 5).blk t).view.emb (ix2 p q) = ix2 (⟨t.val * 128 + p.val, by omega⟩ : Fin 4096) q := by
    funext a; apply Fin.ext
    match a with
    | ⟨0, _⟩ => show win2_5.index t (0 : Fin 2) * 128 + 1 * p.val = t.val * 128 + p.val; omega
    | ⟨1, _⟩ => show win2_5.index t (1 : Fin 2) * 1 + 1 * q.val = q.val; omega
  show k2_pay1 (F := Ideal) (iblk2 V c 0 t) (iblk2 V c 1 t) (iblk2 V c 2 t) (iblk2 V c 3 t) (iblk2 V c 4 t) (ix2 p q)
      = rowsOut V c (((cfg2.win 5).blk t).view.emb (ix2 p q))
  rw [hemb]
  refine point_eq (V c main_v31) (V c main_v35) (V c main_v36) (V c main_v28) (V c main_v30) _ _ _ _ _ p q _ q ?_ ?_ ?_ ?_ ?_
  · intro d
    have hd : d.val < 1024 := d.isLt
    show V c main_v31 (((cfg2.win 0).blk t).view.emb (ix2 p d)) = _
    refine congrArg (V c main_v31) (funext fun a => Fin.ext ?_)
    match a with
    | ⟨0, _⟩ => show win2_0.index t (0 : Fin 2) * 128 + 1 * p.val = t.val * 128 + p.val; omega
    | ⟨1, _⟩ => show win2_0.index t (1 : Fin 2) * 1024 + 1 * d.val = d.val; omega
  · funext y
    show V c main_v35 (((cfg2.win 1).blk t).view.emb y) = V c main_v35 y
    refine congrArg (V c main_v35) (funext fun a => Fin.ext ?_)
    match a with
    | ⟨0, _⟩ => show win2_1.index t (0 : Fin 2) * 1024 + 1 * (y 0).val = (y 0).val; omega
    | ⟨1, _⟩ => show win2_1.index t (1 : Fin 2) * 64 + 1 * (y 1).val = (y 1).val; omega
  · funext y
    show V c main_v36 (((cfg2.win 2).blk t).view.emb y) = V c main_v36 y
    refine congrArg (V c main_v36) (funext fun a => Fin.ext ?_)
    match a with
    | ⟨0, _⟩ => show win2_2.index t (0 : Fin 2) * 64 + 1 * (y 0).val = (y 0).val; omega
    | ⟨1, _⟩ => show win2_2.index t (1 : Fin 2) * 22000 + 1 * (y 1).val = (y 1).val; omega
  · show V c main_v28 (((cfg2.win 3).blk t).view.emb (ix2 p q)) = _
    refine congrArg (V c main_v28) (funext fun a => Fin.ext ?_)
    match a with
    | ⟨0, _⟩ => show win2_3.index t (0 : Fin 2) * 128 + 1 * p.val = t.val * 128 + p.val; omega
    | ⟨1, _⟩ => show win2_3.index t (1 : Fin 2) * 1 + 1 * q.val = q.val; omega
  · show V c main_v30 (((cfg2.win 4).blk t).view.emb (ix2 p q)) = _
    refine congrArg (V c main_v30) (funext fun a => Fin.ext ?_)
    match a with
    | ⟨0, _⟩ => show win2_4.index t (0 : Fin 2) * 128 + 1 * p.val = t.val * 128 + p.val; omega
    | ⟨1, _⟩ => show win2_4.index t (1 : Fin 2) * 1 + 1 * q.val = q.val; omega

/-- An index of the array is in point t's block iff each coordinate is in the block's range on its axis. -/
theorem mem_blk (t : Fin cfg2.N) (i : S4096x1.Idx) :
    i ∈ ((cfg2.win 5).blk t).view.set ↔ ∀ a : Fin 2, win2_5.index t a * S128x1.size a ≤ (i a).val ∧ (i a).val < win2_5.index t a * S128x1.size a + S128x1.size a := by
  show i ∈ ((View.whole main_v39).slice (win2_5.rect t)).set ↔ _
  rw [View.set_slice_whole, Rect.mem_set_unit]
  exact Iff.rfl

/-- Row r is in the block of point r / 128, which writes back. -/
theorem cover (i : S4096x1.Idx) : ∃ t : Fin cfg2.N, (cfg2.win 5).flush t = true ∧ i ∈ ((cfg2.win 5).blk t).view.set := by
  have hi0 : (i 0).val < 4096 := (i 0).isLt
  have hi1 : (i 1).val < 1 := (i 1).isLt
  have hN : cfg2.N = 32 := N_2
  obtain ⟨t, ht⟩ : ∃ t : Fin cfg2.N, t.val = (i 0).val / 128 := ⟨⟨(i 0).val / 128, by rw [hN]; omega⟩, rfl⟩
  obtain ⟨-, -, -, -, -, -, -, -, -, -, e50, e51⟩ := idx_facts t
  refine ⟨t, flush2_5 t, ?_⟩
  rw [mem_blk]
  intro a
  match a with
  | ⟨0, _⟩ => show win2_5.index t (0 : Fin 2) * 128 ≤ (i 0).val ∧ (i 0).val < win2_5.index t (0 : Fin 2) * 128 + 128; omega
  | ⟨1, _⟩ => show win2_5.index t (1 : Fin 2) * 1 ≤ (i 1).val ∧ (i 1).val < win2_5.index t (1 : Fin 2) * 1 + 1; omega

/-- The output array after the region: the array function, since every row is in the block of a point that writes back. -/
theorem arr (c : Dev nD) :
    (dat2 (F := Ideal) V c).arrAt 5 cfg2.N
      = fun i : S4096x1.Idx =>
          lsmPick (vecMat (vecMat (rowOf (V c main_v31) (i 0)) (V c main_v35)) (V c main_v36)) (V c main_v28 i) * V c main_v30 i :=
  (dat2 (F := Ideal) V c).arrAt_eq_of_cover 5 (rowsOut V c) (fun t _ => flushed_eq V c t) cover

end Cert.KernelIdeal.Region2

end
-- ==== Proof.KHost.lean ====
import proofs.«422491_j80461917323672_2_alg».proof.Proof.Gen.KernelIdeal.Frame
import proofs.«422491_j80461917323672_2_alg».proof.Proof.Spec
import Idealize.ShloMosaic.Lib.StableHlo.Run
import Idealize.ShloMosaic.Lib.Pipeline.Value

noncomputable section

namespace Cert.KernelIdeal.KHost

open Idealize.ShloMosaic Idealize.ShloMosaic.TcCoe Idealize.ShloMosaic.ValueIdx Idealize.SL.Sem Cert.KernelIdeal Cert.KernelIdeal.Gen Cert.Spec

variable (m : (ℓ : Loc nD τ sig) → Buf (Elt Ideal) ℓ) (ρ : Dev nD → PrngReg)

/-! ### The references each stretch of host operations writes, and that a stretch leaves every other buffer alone -/

private abbrev Wr0 : List (Ref sig .tc) :=
  [main_c, main_v0, main_v1, main_v2, main_c_0, main_v3, main_v4, main_v5, main_v6, main_c_1, main_v7, main_v8,
   main_c_2, main_v9, main_v10, main_c_3, main_v11, main_v12]
private abbrev Wr1 : List (Ref sig .tc) := [main_v13]
private abbrev Wr2 : List (Ref sig .tc) := [main_c_4, main_v14, main_v15, main_c_5, main_c_6]
private abbrev Wr3 : List (Ref sig .tc) :=
  [main_call1_v0, main_call1_v1, main_call1_v2, main_call1_v3, main_call1_v4, main_v16]
private abbrev Wr4 : List (Ref sig .tc) := [main_c_7, main_v17, main_v18, main_c_8, main_c_9]
private abbrev Wr5 : List (Ref sig .tc) :=
  [main_call2_v0, main_call2_v1, main_call2_v2, main_call2_v3, main_call2_v4, main_v19]

private theorem keep1 (c : Dev nD) (r : Ref sig .tc) (h : r ∉ Wr0) :
    W1 m ρ c (Proc.devRef .tc r) = W0 m ρ c (Proc.devRef .tc r) :=
  StableHlo.after_of_writes_sub (W := Wr0) hostOps0 _ (by
    simp only [hostOps0, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) h
private theorem keep2 (c : Dev nD) (r : Ref sig .tc) (h : r ∉ Wr1) :
    W2 m ρ c (Proc.devRef .tc r) = W1 m ρ c (Proc.devRef .tc r) :=
  StableHlo.after_of_writes_sub (W := Wr1) hostOps0_1 _ (by
    simp only [hostOps0_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) h
private theorem keep3 (c : Dev nD) (r : Ref sig .tc) (h : r ∉ Wr2) :
    W3 m ρ c (Proc.devRef .tc r) = W2 m ρ c (Proc.devRef .tc r) :=
  StableHlo.after_of_writes_sub (W := Wr2) hostOps0_2 _ (by
    simp only [hostOps0_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) h
private theorem keep4 (c : Dev nD) (r : Ref sig .tc) (h : r ∉ Wr3) :
    W4 m ρ c (Proc.devRef .tc r) = W3 m ρ c (Proc.devRef .tc r) :=
  StableHlo.after_of_writes_sub (W := Wr3) hostOps0_3 _ (by
    simp only [hostOps0_3, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) h
private theorem keep5 (c : Dev nD) (r : Ref sig .tc) (h : r ∉ Wr4) :
    W5 m ρ c (Proc.devRef .tc r) = W4 m ρ c (Proc.devRef .tc r) :=
  StableHlo.after_of_writes_sub (W := Wr4) hostOps0_4 _ (by
    simp only [hostOps0_4, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) h
private theorem keep6 (c : Dev nD) (r : Ref sig .tc) (h : r ∉ Wr5) :
    W6 m ρ c (Proc.devRef .tc r) = W5 m ρ c (Proc.devRef .tc r) :=
  StableHlo.after_of_writes_sub (W := Wr5) hostOps0_5 _ (by
    simp only [hostOps0_5, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) h

/-- A buffer none of the first six stretches writes holds at the last stretch what it held at launch. -/
private theorem W6_keep (c : Dev nD) (r : Ref sig .tc) (h0 : r ∉ Wr0) (h1 : r ∉ Wr1) (h2 : r ∉ Wr2) (h3 : r ∉ Wr3)
    (h4 : r ∉ Wr4) (h5 : r ∉ Wr5) : W6 m ρ c (Proc.devRef .tc r) = W0 m ρ c (Proc.devRef .tc r) :=
  (keep6 m ρ c r h5).trans ((keep5 m ρ c r h4).trans ((keep4 m ρ c r h3).trans ((keep3 m ρ c r h2).trans
    ((keep2 m ρ c r h1).trans (keep1 m ρ c r h0)))))

/-! ### The integer glue, stretch by stretch, read at a row, from any contents before the stretch -/

section Stretch

variable (V : Valuation τ sig (Elt Ideal))

private theorem s0_v6 (j : S4096.Idx) :
    StableHlo.after hostOps0 V (Proc.devRef .tc main_v6) j = cidW (V (Proc.devRef .tc main_arg1) j) := by
  after_results
  rfl
private theorem s0_v8 (j : S4096.Idx) :
    StableHlo.after hostOps0 V (Proc.devRef .tc main_v8) j = IntOp.cmpi .eq (cidW (V (Proc.devRef .tc main_arg1) j)) 0#32 := by
  after_results
  rfl
private theorem s0_v12 (j : S4096.Idx) :
    StableHlo.after hostOps0 V (Proc.devRef .tc main_v12) j
      = IntOp.subi (IntOp.addi 2000#32 (cidW (V (Proc.devRef .tc main_arg1) j))) 1#32 := by
  after_results
  rfl
private theorem s1_v13 (j : S4096.Idx) :
    StableHlo.after hostOps0_1 V (Proc.devRef .tc main_v13) j
      = Scalar.select (V (Proc.devRef .tc main_v8) j) (V (Proc.devRef .tc main_arg1) j) (V (Proc.devRef .tc main_v12) j) := by
  after_results
  rfl
private theorem s23_v16 (j : S4096.Idx) :
    StableHlo.after hostOps0_3 (StableHlo.after hostOps0_2 V) (Proc.devRef .tc main_v16) j = t0W (V (Proc.devRef .tc main_arg1) j) := by
  rw [← StableHlo.after_append]
  simp only [hostOps0_2, hostOps0_3, List.cons_append, List.nil_append]
  after_results
  rfl
private theorem s45_v19 (j : S4096.Idx) :
    StableHlo.after hostOps0_5 (StableHlo.after hostOps0_4 V) (Proc.devRef .tc main_v19) j = t1W (V (Proc.devRef .tc main_arg1) j) := by
  rw [← StableHlo.after_append]
  simp only [hostOps0_4, hostOps0_5, List.cons_append, List.nil_append]
  after_results
  rfl

/-- The reshape of a column of n entries to n rows of one entry reads row i at entry i. -/
private theorem shapeCast_col_apply {α : Type} {n : ℕ} (x : (⟨1, ![n]⟩ : Shape).Idx → α)
    (h : (⟨1, ![n]⟩ : Shape).ShapeCasts ⟨2, ![n, 1]⟩) (i : (⟨2, ![n, 1]⟩ : Shape).Idx) :
    shapeCast ⟨2, ![n, 1]⟩ x h i = x (ix1 (i 0)) := by
  refine shapeCast_apply x h i (ix1 (i 0)) ?_
  rw [Shape.rowMajor_val_one, Shape.rowMajor_val_two]
  have h1 : (i 1).val = 0 := by have := (i 1).isLt; simp at this; omega
  show (i 0).val = (i 0).val * 1 + (i 1).val
  omega

private theorem s6_v26 (i : S4096x1.Idx) :
    StableHlo.after hostOps0_6 V (Proc.devRef .tc main_v26) i = V (Proc.devRef .tc main_v13) (ix1 (i 0)) := by
  after_results
  exact shapeCast_col_apply _ _ i
private theorem s6_v27 (i : S4096x1.Idx) :
    StableHlo.after hostOps0_6 V (Proc.devRef .tc main_v27) i = V (Proc.devRef .tc main_v16) (ix1 (i 0)) := by
  after_results
  exact shapeCast_col_apply _ _ i
private theorem s6_v28 (i : S4096x1.Idx) :
    StableHlo.after hostOps0_6 V (Proc.devRef .tc main_v28) i = V (Proc.devRef .tc main_v19) (ix1 (i 0)) := by
  after_results
  exact shapeCast_col_apply _ _ i
private theorem s6_v29 (i : S4096x1.Idx) :
    StableHlo.after hostOps0_6 V (Proc.devRef .tc main_v29) i
      = FloatOps.uitofp (F := Ideal) .f32 (IntOp.cmpi .eq (V (Proc.devRef .tc main_v6) (ix1 (i 0))) 1#32) := by
  after_results
  exact shapeCast_col_apply _ _ i
private theorem s6_v30 (i : S4096x1.Idx) :
    StableHlo.after hostOps0_6 V (Proc.devRef .tc main_v30) i
      = FloatOps.uitofp (F := Ideal) .f32 (IntOp.cmpi .eq (V (Proc.devRef .tc main_v6) (ix1 (i 0))) 2#32) := by
  after_results
  exact shapeCast_col_apply _ _ i

private theorem s6_v31 : StableHlo.after hostOps0_6 V (Proc.devRef .tc main_v31) = V (Proc.devRef .tc main_arg0) := by
  after_results
  rfl
private theorem s6_v32 : StableHlo.after hostOps0_6 V (Proc.devRef .tc main_v32) = V (Proc.devRef .tc main_arg2) := by
  after_results
  rfl
private theorem s6_v33 : StableHlo.after hostOps0_6 V (Proc.devRef .tc main_v33) = V (Proc.devRef .tc main_arg3) := by
  after_results
  rfl
private theorem s6_v34 : StableHlo.after hostOps0_6 V (Proc.devRef .tc main_v34) = V (Proc.devRef .tc main_arg4) := by
  after_results
  rfl
private theorem s6_v35 : StableHlo.after hostOps0_6 V (Proc.devRef .tc main_v35) = V (Proc.devRef .tc main_arg5) := by
  after_results
  rfl
private theorem s6_v36 : StableHlo.after hostOps0_6 V (Proc.devRef .tc main_v36) = V (Proc.devRef .tc main_arg6) := by
  after_results
  rfl

end Stretch

/-! ### What the first region finds: each window's array in terms of the arguments -/

theorem V7_v31 (c : Dev nD) : V7 m ρ c main_v31 = m ((c.tc : Thread nD τ).loc main_arg0) :=
  (s6_v31 (W6 m ρ c)).trans (W6_keep m ρ c main_arg0 (by decide) (by decide) (by decide) (by decide) (by decide) (by decide))
theorem V7_v32 (c : Dev nD) : V7 m ρ c main_v32 = m ((c.tc : Thread nD τ).loc main_arg2) :=
  (s6_v32 (W6 m ρ c)).trans (W6_keep m ρ c main_arg2 (by decide) (by decide) (by decide) (by decide) (by decide) (by decide))
theorem V7_v33 (c : Dev nD) : V7 m ρ c main_v33 = m ((c.tc : Thread nD τ).loc main_arg3) :=
  (s6_v33 (W6 m ρ c)).trans (W6_keep m ρ c main_arg3 (by decide) (by decide) (by decide) (by decide) (by decide) (by decide))
theorem V7_v34 (c : Dev nD) : V7 m ρ c main_v34 = m ((c.tc : Thread nD τ).loc main_arg4) :=
  (s6_v34 (W6 m ρ c)).trans (W6_keep m ρ c main_arg4 (by decide) (by decide) (by decide) (by decide) (by decide) (by decide))
theorem V7_v35 (c : Dev nD) : V7 m ρ c main_v35 = m ((c.tc : Thread nD τ).loc main_arg5) :=
  (s6_v35 (W6 m ρ c)).trans (W6_keep m ρ c main_arg5 (by decide) (by decide) (by decide) (by decide) (by decide) (by decide))
theorem V7_v36 (c : Dev nD) : V7 m ρ c main_v36 = m ((c.tc : Thread nD τ).loc main_arg6) :=
  (s6_v36 (W6 m ρ c)).trans (W6_keep m ρ c main_arg6 (by decide) (by decide) (by decide) (by decide) (by decide) (by decide))

/-- The cluster number of every row, as the last stretch finds it. -/
private theorem W6_v6 (c : Dev nD) (j : S4096.Idx) :
    W6 m ρ c (Proc.devRef .tc main_v6) j = cidW (m ((c.tc : Thread nD τ).loc main_arg1) j) := by
  rw [keep6 m ρ c main_v6 (by decide), keep5 m ρ c main_v6 (by decide), keep4 m ρ c main_v6 (by decide),
    keep3 m ρ c main_v6 (by decide), keep2 m ρ c main_v6 (by decide)]
  exact s0_v6 (W0 m ρ c) j

theorem V7_v26 (c : Dev nD) (i : S4096x1.Idx) :
    V7 m ρ c main_v26 i = gidxW (m ((c.tc : Thread nD τ).loc main_arg1) (ix1 (i 0))) := by
  refine (s6_v26 (W6 m ρ c) i).trans ?_
  rw [keep6 m ρ c main_v13 (by decide), keep5 m ρ c main_v13 (by decide), keep4 m ρ c main_v13 (by decide),
    keep3 m ρ c main_v13 (by decide)]
  refine (s1_v13 (W1 m ρ c) (ix1 (i 0))).trans ?_
  rw [keep1 m ρ c main_arg1 (by decide)]
  show Scalar.select (StableHlo.after hostOps0 (W0 m ρ c) (Proc.devRef .tc main_v8) (ix1 (i 0))) _
    (StableHlo.after hostOps0 (W0 m ρ c) (Proc.devRef .tc main_v12) (ix1 (i 0))) = _
  rw [s0_v8, s0_v12]
  rfl
theorem V7_v27 (c : Dev nD) (i : S4096x1.Idx) :
    V7 m ρ c main_v27 i = t0W (m ((c.tc : Thread nD τ).loc main_arg1) (ix1 (i 0))) := by
  refine (s6_v27 (W6 m ρ c) i).trans ?_
  rw [keep6 m ρ c main_v16 (by decide), keep5 m ρ c main_v16 (by decide)]
  refine (s23_v16 (W2 m ρ c) (ix1 (i 0))).trans ?_
  rw [keep2 m ρ c main_arg1 (by decide), keep1 m ρ c main_arg1 (by decide)]
theorem V7_v28 (c : Dev nD) (i : S4096x1.Idx) :
    V7 m ρ c main_v28 i = t1W (m ((c.tc : Thread nD τ).loc main_arg1) (ix1 (i 0))) := by
  refine (s6_v28 (W6 m ρ c) i).trans ?_
  refine (s45_v19 (W4 m ρ c) (ix1 (i 0))).trans ?_
  rw [keep4 m ρ c main_arg1 (by decide), keep3 m ρ c main_arg1 (by decide), keep2 m ρ c main_arg1 (by decide),
    keep1 m ρ c main_arg1 (by decide)]
theorem V7_v29 (c : Dev nD) (i : S4096x1.Idx) :
    V7 m ρ c main_v29 i
      = FloatOps.uitofp (F := Ideal) .f32 (IntOp.cmpi .eq (cidW (m ((c.tc : Thread nD τ).loc main_arg1) (ix1 (i 0)))) 1#32) := by
  refine (s6_v29 (W6 m ρ c) i).trans ?_
  rw [W6_v6]
theorem V7_v30 (c : Dev nD) (i : S4096x1.Idx) :
    V7 m ρ c main_v30 i
      = FloatOps.uitofp (F := Ideal) .f32 (IntOp.cmpi .eq (cidW (m ((c.tc : Thread nD τ).loc main_arg1) (ix1 (i 0)))) 2#32) := by
  refine (s6_v30 (W6 m ρ c) i).trans ?_
  rw [W6_v6]

/-! ### The later regions find the same: no region writes an array another region reads -/

/-- An input window's array of the first region leaves the region as it entered. -/
private theorem V8_in (c : Dev nD) (w : Fin cfg0.W) (hin : (cfg0.win w).isOut = false) :
    V8 m ρ c (Pipeline.arrRef spec0 w) = V7 m ρ c (Pipeline.arrRef spec0 w) :=
  (W8_arr m ρ c w).trans (((dat0 (V7 m ρ) c).arrAt_in w hin cfg0.N).trans (A_eq0 (V7 m ρ) c w))

/-- An input window's array of the second region leaves the region as it entered. -/
private theorem V9_in (c : Dev nD) (w : Fin cfg1.W) (hin : (cfg1.win w).isOut = false) :
    V9 m ρ c (Pipeline.arrRef spec1 w) = V8 m ρ c (Pipeline.arrRef spec1 w) :=
  (W9_arr m ρ c w).trans (((dat1 (V8 m ρ) c).arrAt_in w hin cfg1.N).trans (A_eq1 (V8 m ρ) c w))

theorem V8_eq (c : Dev nD) (b : Ref sig .tc)
    (hb : b ∈ [main_v26, main_v27, main_v28, main_v29, main_v30, main_v31, main_v32, main_v33, main_v34, main_v35, main_v36]) :
    V8 m ρ c b = V7 m ρ c b := by
  simp only [List.mem_cons, List.mem_singleton, List.not_mem_nil, or_false] at hb
  rcases hb with rfl | rfl | rfl | rfl | rfl | rfl | rfl | rfl | rfl | rfl | rfl
  · exact V8_in m ρ c 2 rfl
  · exact W8_of_ne m ρ c main_v27 (by decide)
  · exact W8_of_ne m ρ c main_v28 (by decide)
  · exact W8_of_ne m ρ c main_v29 (by decide)
  · exact W8_of_ne m ρ c main_v30 (by decide)
  · exact V8_in m ρ c 0 rfl
  · exact V8_in m ρ c 1 rfl
  · exact W8_of_ne m ρ c main_v33 (by decide)
  · exact W8_of_ne m ρ c main_v34 (by decide)
  · exact W8_of_ne m ρ c main_v35 (by decide)
  · exact W8_of_ne m ρ c main_v36 (by decide)

theorem V9_eq (c : Dev nD) (b : Ref sig .tc)
    (hb : b ∈ [main_v26, main_v27, main_v28, main_v29, main_v30, main_v31, main_v32, main_v33, main_v34, main_v35, main_v36]) :
    V9 m ρ c b = V7 m ρ c b := by
  refine Eq.trans ?_ (V8_eq m ρ c b hb)
  simp only [List.mem_cons, List.mem_singleton, List.not_mem_nil, or_false] at hb
  rcases hb with rfl | rfl | rfl | rfl | rfl | rfl | rfl | rfl | rfl | rfl | rfl
  · exact W9_of_ne m ρ c main_v26 (by decide)
  · exact V9_in m ρ c 3 rfl
  · exact W9_of_ne m ρ c main_v28 (by decide)
  · exact V9_in m ρ c 4 rfl
  · exact W9_of_ne m ρ c main_v30 (by decide)
  · exact V9_in m ρ c 0 rfl
  · exact W9_of_ne m ρ c main_v32 (by decide)
  · exact V9_in m ρ c 1 rfl
  · exact V9_in m ρ c 2 rfl
  · exact W9_of_ne m ρ c main_v35 (by decide)
  · exact W9_of_ne m ρ c main_v36 (by decide)

end Cert.KernelIdeal.KHost

end
-- ==== Proof.KernelValue.lean ====
import proofs.«422491_j80461917323672_2_alg».proof.Proof.KernelLaunch
import proofs.«422491_j80461917323672_2_alg».proof.Proof.Region0
import proofs.«422491_j80461917323672_2_alg».proof.Proof.Region1
import proofs.«422491_j80461917323672_2_alg».proof.Proof.Region2
import proofs.«422491_j80461917323672_2_alg».proof.Proof.KHost
import proofs.«422491_j80461917323672_2_alg».proof.Proof.Spec
import Idealize.ShloMosaic.Lib.StableHlo.Run
import Idealize.ShloMosaic.Lib.Pipeline.Value

noncomputable section

namespace Cert.KernelIdeal.KernelValue

open Idealize.ShloMosaic Idealize.ShloMosaic.TcCoe Idealize.SL.Sem Cert.KernelIdeal Cert.KernelIdeal.Gen Cert.Spec

open Idealize.ShloMosaic.ValueIdx

/-- A column [a, 1] cast to a vector [a] reads, at i, the column's entry (i, 0): the two indices have the same
    row-major position, i * 1 + 0 = i. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ)

/-- The first result: row by row, the masked-sum spelling of the adaptive log-likelihood. -/
def out0 (c : Dev nD) : S4096.Idx → EReal := fun i =>
  KOUT (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg1) i) (i 0)

/-- The second result: minus the mean of the first. -/
def out1 (c : Dev nD) : S_.Idx → EReal :=
  Host.negf (F := Ideal) (Host.divf (F := Ideal) (Host.reduceAdd (F := Ideal) (out0 m c) (constant (F := Ideal) S_ .f32 0x00000000#32) reducesTo_S4096_S_d0 h_S_)
    (constant (F := Ideal) S_ .f32 0x45800000#32))

section Boundary

variable (ρ : Dev nD → PrngReg)

/-! ### The three region outputs at the last boundary

Each region writes one output array and no later region or host operation touches it, so at the last boundary it
still holds what its region left. -/

/-- The third region's output array at the last boundary. -/
theorem W10_v39 (c : Dev nD) :
    W10 m ρ c (Proc.devRef .tc main_v39) = (dat2 (F := Ideal) (V9 m ρ) c).arrAt 5 cfg2.N := W10_arr m ρ c 5

/-- The second region's output array is not written by the third region. -/
theorem W10_v38 (c : Dev nD) :
    W10 m ρ c (Proc.devRef .tc main_v38) = (dat1 (F := Ideal) (V8 m ρ) c).arrAt 5 cfg1.N :=
  (W10_of_ne m ρ c main_v38 (by decide)).trans (W9_arr m ρ c 5)

/-- The first region's output array is written by neither later region. -/
theorem W10_v37 (c : Dev nD) :
    W10 m ρ c (Proc.devRef .tc main_v37) = (dat0 (F := Ideal) (V7 m ρ) c).arrAt 3 cfg0.N :=
  (W10_of_ne m ρ c main_v37 (by decide)).trans ((W9_of_ne m ρ c main_v37 (by decide)).trans (W8_arr m ρ c 3))

/-! ### The three terms over the launch memory

Each region's array is its row-wise formula over that region's entry contents; the entry contents of the later
regions agree with the first region's on every buffer the formulas read, and those are the arguments (the matrices
as launched, the index words and the 0 / 1 factors computed from the target word of the row). -/

/-- The head's term, row by row, over the launch memory. -/
theorem v37_eq (c : Dev nD) :
    W10 m ρ c (Proc.devRef .tc main_v37) = fun i : S4096x1.Idx =>
      lsmPick (headRow (m ((c.tc : Thread nD τ).loc main_arg0)) (m ((c.tc : Thread nD τ).loc main_arg2)) (i 0))
        (gidxW (m ((c.tc : Thread nD τ).loc main_arg1) (ix1 (i 0)))) := by
  rw [W10_v37, Region0.arr (V7 m ρ) c]
  funext i
  rw [KHost.V7_v31 m ρ c, KHost.V7_v32 m ρ c, KHost.V7_v26 m ρ c i]
  rfl

/-- The first tail's term, row by row, over the launch memory. -/
theorem v38_eq (c : Dev nD) :
    W10 m ρ c (Proc.devRef .tc main_v38) = fun i : S4096x1.Idx =>
      lsmPick (tail0Row (m ((c.tc : Thread nD τ).loc main_arg0)) (m ((c.tc : Thread nD τ).loc main_arg3))
          (m ((c.tc : Thread nD τ).loc main_arg4)) (i 0)) (t0W (m ((c.tc : Thread nD τ).loc main_arg1) (ix1 (i 0))))
        * FloatOps.uitofp (F := Ideal) .f32 (IntOp.cmpi .eq (cidW (m ((c.tc : Thread nD τ).loc main_arg1) (ix1 (i 0)))) 1#32) := by
  rw [W10_v38, Region1.arr (V8 m ρ) c]
  funext i
  rw [KHost.V8_eq m ρ c main_v31 (by decide), KHost.V8_eq m ρ c main_v33 (by decide), KHost.V8_eq m ρ c main_v34 (by decide),
    KHost.V8_eq m ρ c main_v27 (by decide), KHost.V8_eq m ρ c main_v29 (by decide),
    KHost.V7_v31 m ρ c, KHost.V7_v33 m ρ c, KHost.V7_v34 m ρ c, KHost.V7_v27 m ρ c i, KHost.V7_v29 m ρ c i]
  rfl

/-- The second tail's term, row by row, over the launch memory. -/
theorem v39_eq (c : Dev nD) :
    W10 m ρ c (Proc.devRef .tc main_v39) = fun i : S4096x1.Idx =>
      lsmPick (tail1Row (m ((c.tc : Thread nD τ).loc main_arg0)) (m ((c.tc : Thread nD τ).loc main_arg5))
          (m ((c.tc : Thread nD τ).loc main_arg6)) (i 0)) (t1W (m ((c.tc : Thread nD τ).loc main_arg1) (ix1 (i 0))))
        * FloatOps.uitofp (F := Ideal) .f32 (IntOp.cmpi .eq (cidW (m ((c.tc : Thread nD τ).loc main_arg1) (ix1 (i 0)))) 2#32) := by
  rw [W10_v39, Region2.arr (V9 m ρ) c]
  funext i
  rw [KHost.V9_eq m ρ c main_v31 (by decide), KHost.V9_eq m ρ c main_v35 (by decide), KHost.V9_eq m ρ c main_v36 (by decide),
    KHost.V9_eq m ρ c main_v28 (by decide), KHost.V9_eq m ρ c main_v30 (by decide),
    KHost.V7_v31 m ρ c, KHost.V7_v35 m ρ c, KHost.V7_v36 m ρ c, KHost.V7_v28 m ρ c i, KHost.V7_v30 m ρ c i]
  rfl

/-! ### The two results -/

/-- The three columns added entry by entry, the column then read as a vector: at row p the sum is the masked-sum
    spelling of the row's log-likelihood. -/
theorem v42_term (c : Dev nD) :
    (fun i : S4096.Idx => shapeCast (α := EReal) S4096
        (addf (F := Ideal) (s := S4096x1) (φ := .f32)
          (addf (F := Ideal) (s := S4096x1) (φ := .f32) (W10 m ρ c (Proc.devRef .tc main_v37)) (W10 m ρ c (Proc.devRef .tc main_v38)))
          (W10 m ρ c (Proc.devRef .tc main_v39))) shapeCasts_S4096x1_S4096 i) = out0 m c := by
  rw [v37_eq, v38_eq, v39_eq]
  funext i
  obtain ⟨p, rfl⟩ : ∃ p : Fin 4096, i = ix1 p := ⟨i 0, eq_ix1 i⟩
  refine (shapeCast_a1_a_apply _ shapeCasts_S4096x1_S4096 p).trans ?_
  rfl

/-- The first result. -/
theorem v42_eq (c : Dev nD) : W11 m ρ c (Proc.devRef .tc main_v42) = out0 m c := by
  show StableHlo.after hostOps3 (W10 m ρ c) (Proc.devRef .tc main_v42) = _
  after_results
  exact v42_term m ρ c

/-- The second result: the host's sum, quotient and negation applied to the first result. -/
theorem v45_eq (c : Dev nD) : W11 m ρ c (Proc.devRef .tc main_v45) = out1 m c := by
  show StableHlo.after hostOps3 (W10 m ρ c) (Proc.devRef .tc main_v45) = _
  after_results
  exact congrArg (fun z : S4096.Idx → EReal =>
    Host.negf (F := Ideal) (Host.divf (F := Ideal)
      (Host.reduceAdd (F := Ideal) z (constant (F := Ideal) S_ .f32 0x00000000#32) reducesTo_S4096_S_d0 h_S_)
      (constant (F := Ideal) S_ .f32 0x45800000#32))) (v42_term m ρ c)

end Boundary

/-! ### The run -/

/-- Every fair execution of the program terminates, and the final memory holds the two results and the arguments
    as launched: the launch theorem's post, read at the two result buffers and at the seven arguments. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42) = out0 m c
      ∧ r.2.mem ((c.tc : Thread nD τ).loc main_v45) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (defs (F := Ideal)) _ _).mono (fun r h c =>
    ⟨(h c _ (mem_uc main_v42 (by decide))).trans (v42_eq m ρ c),
     (h c _ (mem_uc main_v45 (by decide))).trans (v45_eq m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩)
    (GenRun.run_all m ρ)

end Cert.KernelIdeal.KernelValue

end
-- ==== Proof.RefLemmas.lean ====
/-
  Reading the reference's printed tensor operations at an index.

  Each fact is stated over a matrix of 4096 rows and N columns, N a variable: the gather of one entry per row
  at a pair (row, column) of start indices read signed and clamped; the two-column table of start indices made by
  joining two one-column tables; a row's maximum and a row's sum as a reduction over the second axis; and the
  printed log-softmax (subtract the row maximum, subtract the log of the row's sum of exponentials) read at an
  entry as the row-wise log-softmax of the specification.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.IdealHost
import proofs.«422491_j80461917323672_2_alg».proof.Proof.Spec

noncomputable section

namespace Cert.RefLemmas

open Idealize.ShloMosaic Idealize.ShloMosaic.ValueIdx Cert.Spec
open scoped BigOperators

/-! ### The gather of one entry per row -/

/-- One entry per row: result position p reads the matrix at the pair of start indices of row p of the index table,
    each read signed and clamped into its axis. -/
theorem gather_pair {α : Type} {R N w : Nat} (d : GatherDims ⟨2, ![R, N]⟩ ⟨2, ![R, 2]⟩ ⟨1, ![R]⟩)
    (hcoll : d.collapsedSliceDims = [0, 1]) (hob : d.operandBatchingDims = [])
    (hsim : d.startIndexMap = [0, 1]) (hivd : d.indexVectorDim = 1)
    (x : (⟨2, ![R, N]⟩ : Shape).Idx → α) (idx : IVec ⟨2, ![R, 2]⟩ w) (p : Fin R) (hN : 0 < N) :
    Host.gather d x idx (ix1 p)
      = x (ix2 ⟨min (idx (ix2 p 0)).toInt.toNat (R - 1), by have := p.isLt; omega⟩
               ⟨min (idx (ix2 p 1)).toInt.toNat (N - 1), by omega⟩) := by
  unfold Host.gather
  refine congrArg x (funext fun a => Fin.ext ?_)
  have hb : ∀ a : Fin 2, a ∉ d.operandBatchingDims := by intro a; rw [hob]; exact List.not_mem_nil
  have hk : ∀ a : Fin 2, a ∉ d.sKept := by
    intro a; rw [GatherDims.mem_sKept, hcoll]
    match a with
    | ⟨0, _⟩ => simp
    | ⟨1, _⟩ => simp
  have hm : ∀ a : Fin 2, a ∈ d.startIndexMap := by
    intro a; rw [hsim]
    match a with
    | ⟨0, _⟩ => simp
    | ⟨1, _⟩ => simp
  have hsl : ∀ a : Fin 2, d.sliceSizes a = 1 := by
    intro a; refine d.slice_collapsed a ?_; rw [hcoll]
    match a with
    | ⟨0, _⟩ => simp
    | ⟨1, _⟩ => simp
  -- the start-indices index a result position reads component c of its start index at
  have hsi : ∀ c : Fin d.startIndexMap.length, ∀ c' : Fin 2, c.val = c'.val → d.siIdx (ix1 p) c = ix2 p c' := by
    intro c c' hc
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![R]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      exact hc
  show d.start (ix1 p) idx a + d.batchCoord (ix1 p) a + d.offCoord (ix1 p) a = _
  rw [GatherDims.batchCoord_eq_zero _ _ _ (hb a), GatherDims.offCoord_eq_zero _ _ _ (hk a), Nat.add_zero]
  unfold GatherDims.start
  rw [dif_pos (hm a), hsl a]
  match a with
  | ⟨0, _⟩ =>
    rw [hsi _ 0 (by show List.idxOf (0 : Fin 2) d.startIndexMap = 0; rw [hsim]; simp)]
    rfl
  | ⟨1, _⟩ =>
    rw [hsi _ 1 (by show List.idxOf (1 : Fin 2) d.startIndexMap = 1; rw [hsim]; simp)]
    rfl

/-! ### Two one-column tables joined into a two-column table -/

section Concat
variable {α : Type} {R : Nat}

/-- Column 0 of the joined table is the first table. -/
theorem concat_cols_left (h : Shape.Concatenates [(⟨2, ![R, 1]⟩ : Shape), ⟨2, ![R, 1]⟩] ⟨2, ![R, 2]⟩ 1)
    (a b : (⟨2, ![R, 1]⟩ : Shape).Idx → α) (p : Fin R) :
    concatenate ⟨2, ![R, 2]⟩ 1 [⟨⟨2, ![R, 1]⟩, a⟩, ⟨⟨2, ![R, 1]⟩, b⟩] h (ix2 p 0) = a (ix2 p 0) := by
  refine concatenate_pair_apply_left (t := ⟨2, ![R, 2]⟩) (1 : Fin 2) a b h (ix2 p 0) rfl (ix2 p 0) ?_
  intro c
  match c with
  | ⟨0, _⟩ => rfl
  | ⟨1, _⟩ => rfl

/-- Column 1 of the joined table is the second table. -/
theorem concat_cols_right (h : Shape.Concatenates [(⟨2, ![R, 1]⟩ : Shape), ⟨2, ![R, 1]⟩] ⟨2, ![R, 2]⟩ 1)
    (a b : (⟨2, ![R, 1]⟩ : Shape).Idx → α) (p : Fin R) :
    concatenate ⟨2, ![R, 2]⟩ 1 [⟨⟨2, ![R, 1]⟩, a⟩, ⟨⟨2, ![R, 1]⟩, b⟩] h (ix2 p 1) = b (ix2 p 0) := by
  refine concatenate_pair_apply_right (t := ⟨2, ![R, 2]⟩) (1 : Fin 2) a b h (ix2 p 1) rfl rfl (ix2 p 0) ?_ rfl
  intro c hc
  match c with
  | ⟨0, _⟩ => rfl
  | ⟨1, _⟩ => exact absurd rfl hc

end Concat

/-! ### A row's maximum and a row's sum -/

section Rows
variable {R N : Nat}

/-- The index a reduction over the second axis inserts coordinate k at, over row p. -/
theorem lift_row (h : (⟨2, ![R, N]⟩ : Shape).Reduces [1] ⟨1, ![R]⟩) (p : Fin R) (k : Fin N) :
    h.lift (ix1 p) k = ix2 p k := by
  funext a
  apply Fin.ext
  match a with
  | ⟨0, _⟩ => rfl
  | ⟨1, _⟩ => rfl

/-- The bit pattern of minus infinity is the bottom element. -/
theorem ofBits_neg_inf : Ideal.ofBits .f32 0xFF800000#32 = (⊥ : EReal) := by simp [Ideal.ofBits, Ideal.ieee]

/-- The bit pattern of plus zero is zero. -/
theorem ofBits_zero : Ideal.ofBits .f32 0x00000000#32 = (0 : EReal) := by simp [Ideal.ofBits, Ideal.ieee]

/-- The maximum over the second axis from minus infinity, at row p, is the row's maximum. -/
theorem reduce_max_row (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (x : FVec Ideal ⟨2, ![R, N]⟩ .f32) (p : Fin R) :
    Host.reduce (FloatOps.maximumf (F := Ideal) (φ := .f32)) x (constant (F := Ideal) ⟨0, ![]⟩ .f32 0xFF800000#32) h' hu (ix1 p)
      = rowMax (fun j : Fin N => x (ix2 p j)) := by
  rw [Host.reduce_eq_fold_single _ x _ h' h hu (ix1 p)]
  show (Finset.univ : Finset (Fin N)).fold max (Ideal.ofBits .f32 0xFF800000#32) (x ∘ h.lift (ix1 p)) = _
  rw [ofBits_neg_inf]
  unfold rowMax
  exact congrArg (fun f : Fin N → EReal => Finset.univ.fold max ⊥ f) (funext fun k => congrArg x (lift_row h p k))

/-- The sum over the second axis from zero, at row p, is the row's sum. -/
theorem reduce_add_row (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (x : FVec Ideal ⟨2, ![R, N]⟩ .f32) (p : Fin R) :
    Host.reduceAdd x (constant (F := Ideal) ⟨0, ![]⟩ .f32 0x00000000#32) h' hu (ix1 p) = ∑ j : Fin N, x (ix2 p j) := by
  show Ideal.hostReduceAdd h' x (Ideal.ofBits .f32 0x00000000#32) (ix1 p) = _
  rw [Ideal.hostReduceAdd_single h' h, ofBits_zero, zero_add]
  show ∑ k : Fin N, x (h.lift (ix1 p) k) = _
  exact Finset.sum_congr rfl fun k _ => congrArg x (lift_row h p k)

end Rows

/-! ### The printed log-softmax of a matrix, read at an entry -/

section Lsm
variable {N : Nat}

/-- A per-row vector spread along the columns (first to one column, then to N), read at (p, j), is the vector at p. -/
theorem bcast_row_apply {α : Type} (hb1 : (⟨1, ![4096]⟩ : Shape).BroadcastsInDim ⟨2, ![4096, 1]⟩ ![0])
    (hb2 : (⟨2, ![4096, 1]⟩ : Shape).BroadcastsInDim ⟨2, ![4096, N]⟩ ![0, 1]) (v : (⟨1, ![4096]⟩ : Shape).Idx → α)
    (p : Fin 4096) (j : Fin N) :
    broadcastInDim ⟨2, ![4096, N]⟩ ![0, 1] hb2 (broadcastInDim ⟨2, ![4096, 1]⟩ ![0] hb1 v) (ix2 p j) = v (ix1 p) := by
  rw [broadcastInDim_apply ![0, 1] hb2 _ (ix2 p j) (ix2 p 0) (fun a => match a with
    | ⟨0, _⟩ => by show p.val = if (4096 : Nat) = 1 then 0 else p.val; rw [if_neg (by decide)]
    | ⟨1, _⟩ => by show 0 = if (1 : Nat) = 1 then 0 else j.val; rw [if_pos rfl])]
  exact broadcastInDim_apply ![0] hb1 v (ix2 p 0) (ix1 p) (fun a => match a with
    | ⟨0, _⟩ => by show p.val = if (4096 : Nat) = 1 then 0 else p.val; rw [if_neg (by decide)])

/-- The difference of two matrices of extended reals, entry by entry. -/
theorem subf_apply {s : Shape} (A B : FVec Ideal s .f32) (i : s.Idx) : subf A B i = A i - B i := rfl

/-- The row maxima as the printed text takes them: the maximum over the second axis from minus infinity, joined once
    more with minus infinity. -/
def rowMaxVec (hb0 : (⟨0, ![]⟩ : Shape).BroadcastsInDim ⟨1, ![4096]⟩ ![])
    (hr : (⟨2, ![4096, N]⟩ : Shape).ReducesTo [1] ⟨1, ![4096]⟩) (hu : 0 < (⟨0, ![]⟩ : Shape).numel)
    (L : FVec Ideal ⟨2, ![4096, N]⟩ .f32) : FVec Ideal ⟨1, ![4096]⟩ .f32 :=
  maximumf (broadcastInDim ⟨1, ![4096]⟩ ![] hb0 (constant (F := Ideal) ⟨0, ![]⟩ .f32 0xFF800000#32))
    (Host.reduce FloatOps.maximumf L (constant (F := Ideal) ⟨0, ![]⟩ .f32 0xFF800000#32) hr hu)

/-- The matrix less its row maxima. -/
def shiftMat (hb0 : (⟨0, ![]⟩ : Shape).BroadcastsInDim ⟨1, ![4096]⟩ ![])
    (hb1 : (⟨1, ![4096]⟩ : Shape).BroadcastsInDim ⟨2, ![4096, 1]⟩ ![0])
    (hb2 : (⟨2, ![4096, 1]⟩ : Shape).BroadcastsInDim ⟨2, ![4096, N]⟩ ![0, 1])
    (hr : (⟨2, ![4096, N]⟩ : Shape).ReducesTo [1] ⟨1, ![4096]⟩) (hu : 0 < (⟨0, ![]⟩ : Shape).numel)
    (L : FVec Ideal ⟨2, ![4096, N]⟩ .f32) : FVec Ideal ⟨2, ![4096, N]⟩ .f32 :=
  subf L (broadcastInDim ⟨2, ![4096, N]⟩ ![0, 1] hb2 (broadcastInDim ⟨2, ![4096, 1]⟩ ![0] hb1 (rowMaxVec hb0 hr hu L)))

/-- The printed log-softmax over the second axis: the matrix less its row maxima, less the log of the row sums of the
    exponentials of that difference. -/
def lsmMat (hb0 : (⟨0, ![]⟩ : Shape).BroadcastsInDim ⟨1, ![4096]⟩ ![])
    (hb1 : (⟨1, ![4096]⟩ : Shape).BroadcastsInDim ⟨2, ![4096, 1]⟩ ![0])
    (hb2 : (⟨2, ![4096, 1]⟩ : Shape).BroadcastsInDim ⟨2, ![4096, N]⟩ ![0, 1])
    (hr : (⟨2, ![4096, N]⟩ : Shape).ReducesTo [1] ⟨1, ![4096]⟩) (hu : 0 < (⟨0, ![]⟩ : Shape).numel)
    (L : FVec Ideal ⟨2, ![4096, N]⟩ .f32) : FVec Ideal ⟨2, ![4096, N]⟩ .f32 :=
  subf (shiftMat hb0 hb1 hb2 hr hu L)
    (broadcastInDim ⟨2, ![4096, N]⟩ ![0, 1] hb2 (Host.log (broadcastInDim ⟨2, ![4096, 1]⟩ ![0] hb1
      (Host.reduceAdd (Host.exp (shiftMat hb0 hb1 hb2 hr hu L)) (constant (F := Ideal) ⟨0, ![]⟩ .f32 0x00000000#32) hr hu))))

/-- The log of a per-row vector spread to one column, spread along the columns, read at (p, j), is the log at p. -/
theorem bcast_log_apply (hb1 : (⟨1, ![4096]⟩ : Shape).BroadcastsInDim ⟨2, ![4096, 1]⟩ ![0])
    (hb2 : (⟨2, ![4096, 1]⟩ : Shape).BroadcastsInDim ⟨2, ![4096, N]⟩ ![0, 1]) (v : FVec Ideal ⟨1, ![4096]⟩ .f32)
    (p : Fin 4096) (j : Fin N) :
    broadcastInDim ⟨2, ![4096, N]⟩ ![0, 1] hb2 (Host.log (broadcastInDim ⟨2, ![4096, 1]⟩ ![0] hb1 v)) (ix2 p j)
      = Ideal.log (v (ix1 p)) := by
  rw [broadcastInDim_apply ![0, 1] hb2 _ (ix2 p j) (ix2 p 0) (fun a => match a with
    | ⟨0, _⟩ => by show p.val = if (4096 : Nat) = 1 then 0 else p.val; rw [if_neg (by decide)]
    | ⟨1, _⟩ => by show 0 = if (1 : Nat) = 1 then 0 else j.val; rw [if_pos rfl])]
  show Ideal.log (broadcastInDim ⟨2, ![4096, 1]⟩ ![0] hb1 v (ix2 p 0)) = _
  exact congrArg Ideal.log (broadcastInDim_apply ![0] hb1 v (ix2 p 0) (ix1 p) (fun a => match a with
    | ⟨0, _⟩ => by show p.val = if (4096 : Nat) = 1 then 0 else p.val; rw [if_neg (by decide)]))

variable (hb0 : (⟨0, ![]⟩ : Shape).BroadcastsInDim ⟨1, ![4096]⟩ ![])
  (hb1 : (⟨1, ![4096]⟩ : Shape).BroadcastsInDim ⟨2, ![4096, 1]⟩ ![0])
  (hb2 : (⟨2, ![4096, 1]⟩ : Shape).BroadcastsInDim ⟨2, ![4096, N]⟩ ![0, 1])
  (hr : (⟨2, ![4096, N]⟩ : Shape).ReducesTo [1] ⟨1, ![4096]⟩) (h : (⟨2, ![4096, N]⟩ : Shape).Reduces [1] ⟨1, ![4096]⟩)
  (hu : 0 < (⟨0, ![]⟩ : Shape).numel) (L : FVec Ideal ⟨2, ![4096, N]⟩ .f32)

include h in
/-- The printed row maxima at p: the maximum of row p. -/
theorem rowMaxVec_apply (p : Fin 4096) : rowMaxVec hb0 hr hu L (ix1 p) = rowMax (fun j : Fin N => L (ix2 p j)) := by
  unfold rowMaxVec
  show max (Ideal.ofBits .f32 0xFF800000#32)
    (Host.reduce FloatOps.maximumf L (constant (F := Ideal) ⟨0, ![]⟩ .f32 0xFF800000#32) hr hu (ix1 p)) = _
  rw [reduce_max_row hr h hu L p, ofBits_neg_inf]
  exact max_eq_right bot_le

include h in
/-- The matrix less its row maxima at (p, k). -/
theorem shiftMat_apply (p : Fin 4096) (k : Fin N) :
    shiftMat hb0 hb1 hb2 hr hu L (ix2 p k) = L (ix2 p k) - rowMax (fun j : Fin N => L (ix2 p j)) := by
  unfold shiftMat
  rw [subf_apply, bcast_row_apply hb1 hb2 _ p k, rowMaxVec_apply hb0 hr h hu L p]

include h in
/-- THE PRINTED LOG-SOFTMAX AT (p, j) is the log-softmax of row p at position j. -/
theorem lsmMat_apply (p : Fin 4096) (j : Fin N) :
    lsmMat hb0 hb1 hb2 hr hu L (ix2 p j) = lsmAt (fun j : Fin N => L (ix2 p j)) j := by
  unfold lsmMat lsmAt rowLse
  rw [subf_apply, shiftMat_apply hb0 hb1 hb2 hr h hu L p j, bcast_log_apply hb1 hb2 _ p j, reduce_add_row hr h hu _ p]
  refine congrArg (fun s => (L (ix2 p j) - rowMax (fun j : Fin N => L (ix2 p j))) - Ideal.log s) (Finset.sum_congr rfl fun k _ => ?_)
  show Ideal.exp (shiftMat hb0 hb1 hb2 hr hu L (ix2 p k)) = _
  rw [shiftMat_apply hb0 hb1 hb2 hr h hu L p k]

end Lsm

/-! ### The start indices of a row -/

/-- The gather of one entry per row, with the row and the column it reads named. -/
theorem gather_pair_at {α : Type} {R N w : Nat} (d : GatherDims ⟨2, ![R, N]⟩ ⟨2, ![R, 2]⟩ ⟨1, ![R]⟩)
    (hcoll : d.collapsedSliceDims = [0, 1]) (hob : d.operandBatchingDims = [])
    (hsim : d.startIndexMap = [0, 1]) (hivd : d.indexVectorDim = 1)
    (x : (⟨2, ![R, N]⟩ : Shape).Idx → α) (idx : IVec ⟨2, ![R, 2]⟩ w) (p : Fin R) (hN : 0 < N) (r : Fin R) (c : Fin N)
    (hr : r.val = min (idx (ix2 p 0)).toInt.toNat (R - 1)) (hc : c.val = min (idx (ix2 p 1)).toInt.toNat (N - 1)) :
    Host.gather d x idx (ix1 p) = x (ix2 r c) :=
  (gather_pair d hcoll hob hsim hivd x idx p hN).trans
    (congrArg x (congrArg₂ (fun (a : Fin R) (b : Fin N) => ix2 a b) (Fin.ext hr.symm) (Fin.ext hc.symm)))

/-- The word of a row number, with the wrap of a negative index by 4096 as the reference prints it. -/
def rowW (p : Fin 4096) : BitVec 32 :=
  Scalar.select (IntOp.cmpi .slt (BitVec.ofNat 32 p.val) 0#32) (IntOp.addi (BitVec.ofNat 32 p.val) 4096#32) (BitVec.ofNat 32 p.val)

/-- A row number's word is not negative and below 4096: read signed and clamped into the rows it is the row. -/
theorem rowW_clamp (p : Fin 4096) : min (rowW p).toInt.toNat (4096 - 1) = p.val := by
  have hp := p.isLt
  have h0 : (BitVec.ofNat 32 p.val).toInt = (p.val : Int) := by
    unfold BitVec.toInt
    rw [BitVec.toNat_ofNat, Nat.mod_eq_of_lt (by omega), if_pos (by omega)]
  have hs : (BitVec.ofNat 32 p.val).slt 0#32 = false := by
    unfold BitVec.slt
    rw [h0]
    simp
  unfold rowW IntOp.cmpi
  simp only [hs]
  show min (Scalar.select 0#1 _ (BitVec.ofNat 32 p.val)).toInt.toNat (4096 - 1) = p.val
  unfold Scalar.select
  rw [if_neg (by decide), h0]
  simp
  omega

end Cert.RefLemmas

end
-- ==== Proof.RefValue.lean ====
import proofs.«422491_j80461917323672_2_alg».proof.Proof.RefRun
import proofs.«422491_j80461917323672_2_alg».proof.Proof.RefRead
import proofs.«422491_j80461917323672_2_alg».proof.Proof.Spec
import proofs.«422491_j80461917323672_2_alg».proof.Proof.RefLemmas

noncomputable section

namespace Cert.ReferenceIdeal.RefValue

open Idealize.ShloMosaic Idealize.ShloMosaic.TcCoe Idealize.SL.Sem Cert.ReferenceIdeal Cert.ReferenceIdeal.Gen Cert.Spec

/-! ### The reference's stages at a row

The arguments of the program stand as variables here: the hidden vectors, the target words, the head's matrix and
the two matrices of each tail. Each stage of the reference is read at row p (and column j) into the specification's
row-wise terms. -/

section Stages

open Idealize.ShloMosaic.ValueIdx Cert.RefLemmas Cert.ReferenceIdeal.ReadP

variable (x0 : FVec Ideal S4096x1024 .f32) (x1 : IVec S4096 32) (x2 : FVec Ideal S1024x2002 .f32)
  (x3 : FVec Ideal S1024x256 .f32) (x4 : FVec Ideal S256x8000 .f32) (x5 : FVec Ideal S1024x64 .f32) (x6 : FVec Ideal S64x22000 .f32)

/-! #### The index words: the printed integer operations are the specification's, in the same order -/

theorem v7_apply (i : S4096.Idx) : val_main_v7 (F := Ideal) x1 i = cidW (x1 i) := rfl
theorem v26_apply (i : S4096.Idx) : val_main_v26 (F := Ideal) x1 i = wrapW 2002#32 (gidxW (x1 i)) := rfl
theorem v48_apply (i : S4096.Idx) : val_main_v48 (F := Ideal) x1 i = wrapW 8000#32 (t0W (x1 i)) := rfl
theorem v72_apply (i : S4096.Idx) : val_main_v72 (F := Ideal) x1 i = wrapW 22000#32 (t1W (x1 i)) := rfl
theorem v38_apply (i : S4096.Idx) : val_main_v38 (F := Ideal) x1 i = IntOp.cmpi .eq (cidW (x1 i)) 1#32 := rfl
theorem v62_apply (i : S4096.Idx) : val_main_v62 (F := Ideal) x1 i = IntOp.cmpi .eq (cidW (x1 i)) 2#32 := rfl
theorem v21_apply (p : Fin 4096) : val_main_v21 (F := Ideal) (ix1 p) = rowW p := rfl
theorem v43_apply (p : Fin 4096) : val_main_v43 (F := Ideal) (ix1 p) = rowW p := rfl
theorem v67_apply (p : Fin 4096) : val_main_v67 (F := Ideal) (ix1 p) = rowW p := rfl

/-! #### The scores: each product of matrices at (p, j) is the row vector times the matrix -/

theorem v15_apply (p : Fin 4096) (j : Fin 2002) : val_main_v15 (F := Ideal) x0 x2 (ix2 p j) = headRow x0 x2 p j := by
  rw [val_main_v15_apply]
  show _ = ∑ k : Fin 1024, x0 (ix2 p k) * x2 (ix2 k j)
  refine Finset.sum_congr rfl fun k _ => ?_
  exact congrArg₂ (· * ·) (congrArg x0 (funext fun a => match a with | ⟨0, _⟩ => rfl | ⟨1, _⟩ => rfl))
    (congrArg x2 (funext fun a => match a with | ⟨0, _⟩ => rfl | ⟨1, _⟩ => rfl))

theorem v31_apply (p : Fin 4096) (j : Fin 256) : val_main_v31 (F := Ideal) x0 x3 (ix2 p j) = vecMat (rowOf x0 p) x3 j := by
  rw [val_main_v31_apply]
  show _ = ∑ k : Fin 1024, x0 (ix2 p k) * x3 (ix2 k j)
  refine Finset.sum_congr rfl fun k _ => ?_
  exact congrArg₂ (· * ·) (congrArg x0 (funext fun a => match a with | ⟨0, _⟩ => rfl | ⟨1, _⟩ => rfl))
    (congrArg x3 (funext fun a => match a with | ⟨0, _⟩ => rfl | ⟨1, _⟩ => rfl))

theorem v32_apply (p : Fin 4096) (j : Fin 8000) : val_main_v32 (F := Ideal) x0 x3 x4 (ix2 p j) = tail0Row x0 x3 x4 p j := by
  rw [val_main_v32_apply]
  show _ = ∑ k : Fin 256, vecMat (rowOf x0 p) x3 k * x4 (ix2 k j)
  refine Finset.sum_congr rfl fun k _ => ?_
  refine congrArg₂ (· * ·) ?_ (congrArg x4 (funext fun a => match a with | ⟨0, _⟩ => rfl | ⟨1, _⟩ => rfl))
  have e : lidx_main_v32 (ix2 p j) k = ix2 p k := funext fun a => match a with | ⟨0, _⟩ => rfl | ⟨1, _⟩ => rfl
  rw [e]
  exact v31_apply x0 x3 p k

theorem v55_apply (p : Fin 4096) (j : Fin 64) : val_main_v55 (F := Ideal) x0 x5 (ix2 p j) = vecMat (rowOf x0 p) x5 j := by
  rw [val_main_v55_apply]
  show _ = ∑ k : Fin 1024, x0 (ix2 p k) * x5 (ix2 k j)
  refine Finset.sum_congr rfl fun k _ => ?_
  exact congrArg₂ (· * ·) (congrArg x0 (funext fun a => match a with | ⟨0, _⟩ => rfl | ⟨1, _⟩ => rfl))
    (congrArg x5 (funext fun a => match a with | ⟨0, _⟩ => rfl | ⟨1, _⟩ => rfl))

theorem v56_apply (p : Fin 4096) (j : Fin 22000) : val_main_v56 (F := Ideal) x0 x5 x6 (ix2 p j) = tail1Row x0 x5 x6 p j := by
  rw [val_main_v56_apply]
  show _ = ∑ k : Fin 64, vecMat (rowOf x0 p) x5 k * x6 (ix2 k j)
  refine Finset.sum_congr rfl fun k _ => ?_
  refine congrArg₂ (· * ·) ?_ (congrArg x6 (funext fun a => match a with | ⟨0, _⟩ => rfl | ⟨1, _⟩ => rfl))
  have e : lidx_main_v56 (ix2 p j) k = ix2 p k := funext fun a => match a with | ⟨0, _⟩ => rfl | ⟨1, _⟩ => rfl
  rw [e]
  exact v55_apply x0 x5 p k

/-! #### The log-softmaxes: the printed one at (p, j) is the row's at position j -/

theorem v16_apply (p : Fin 4096) (j : Fin 2002) : val_main_v16 (F := Ideal) x0 x2 (ix2 p j) = lsmAt (headRow x0 x2 p) j :=
  (lsmMat_apply bcast_S_S4096 bcast_S4096_S4096x1_0 bcast_S4096x1_S4096x2002_0_1 reducesTo_S4096x2002_S4096_d1 (by decide) h_S_
      (val_main_v15 (F := Ideal) x0 x2) p j).trans
    (congrArg (fun l => lsmAt l j) (funext fun k => v15_apply x0 x2 p k))

theorem v33_apply (p : Fin 4096) (j : Fin 8000) : val_main_v33 (F := Ideal) x0 x3 x4 (ix2 p j) = lsmAt (tail0Row x0 x3 x4 p) j :=
  (lsmMat_apply bcast_S_S4096 bcast_S4096_S4096x1_0 bcast_S4096x1_S4096x8000_0_1 reducesTo_S4096x8000_S4096_d1 (by decide) h_S_
      (val_main_v32 (F := Ideal) x0 x3 x4) p j).trans
    (congrArg (fun l => lsmAt l j) (funext fun k => v32_apply x0 x3 x4 p k))

theorem v57_apply (p : Fin 4096) (j : Fin 22000) : val_main_v57 (F := Ideal) x0 x5 x6 (ix2 p j) = lsmAt (tail1Row x0 x5 x6 p) j :=
  (lsmMat_apply bcast_S_S4096 bcast_S4096_S4096x1_0 bcast_S4096x1_S4096x22000_0_1 reducesTo_S4096x22000_S4096_d1 (by decide) h_S_
      (val_main_v56 (F := Ideal) x0 x5 x6) p j).trans
    (congrArg (fun l => lsmAt l j) (funext fun k => v56_apply x0 x5 x6 p k))

/-! #### The start indices and the gathers: one entry per row, at the row itself and the clamped column word -/

theorem v29_row (p : Fin 4096) : val_main_v29 (F := Ideal) x1 (ix2 p 0) = rowW p := by
  unfold val_main_v29
  rw [concat_cols_left, val_main_v27_apply]
  have e : idx_main_v27 (ix2 p (0 : Fin 1)) = ix1 p := funext fun a => match a with | ⟨0, _⟩ => rfl
  rw [e]
  exact v21_apply p

theorem v29_col (p : Fin 4096) : val_main_v29 (F := Ideal) x1 (ix2 p 1) = wrapW 2002#32 (gidxW (x1 (ix1 p))) := by
  unfold val_main_v29
  rw [concat_cols_right, val_main_v28_apply]
  have e : idx_main_v28 (ix2 p (0 : Fin 1)) = ix1 p := funext fun a => match a with | ⟨0, _⟩ => rfl
  rw [e]
  exact v26_apply x1 (ix1 p)

theorem v30_apply (p : Fin 4096) :
    val_main_v30 (F := Ideal) x0 x1 x2 (ix1 p) = lsmClamp (by decide) (headRow x0 x2 p) (wrapW 2002#32 (gidxW (x1 (ix1 p)))) := by
  unfold val_main_v30
  refine (gather_pair_at gather_S4096x2002_S4096x2_S4096_n_01_n_n_01_1_11 rfl rfl rfl rfl _ _ p (by decide) p
    ⟨min (wrapW 2002#32 (gidxW (x1 (ix1 p)))).toInt.toNat (2002 - 1), by omega⟩ ?_ ?_).trans (v16_apply x0 x2 p _)
  · rw [v29_row]; exact (rowW_clamp p).symm
  · rw [v29_col]

theorem v51_row (p : Fin 4096) : val_main_v51 (F := Ideal) x1 (ix2 p 0) = rowW p := by
  unfold val_main_v51
  rw [concat_cols_left, val_main_v49_apply]
  have e : idx_main_v49 (ix2 p (0 : Fin 1)) = ix1 p := funext fun a => match a with | ⟨0, _⟩ => rfl
  rw [e]
  exact v43_apply p

theorem v51_col (p : Fin 4096) : val_main_v51 (F := Ideal) x1 (ix2 p 1) = wrapW 8000#32 (t0W (x1 (ix1 p))) := by
  unfold val_main_v51
  rw [concat_cols_right, val_main_v50_apply]
  have e : idx_main_v50 (ix2 p (0 : Fin 1)) = ix1 p := funext fun a => match a with | ⟨0, _⟩ => rfl
  rw [e]
  exact v48_apply x1 (ix1 p)

theorem v52_apply (p : Fin 4096) :
    val_main_v52 (F := Ideal) x0 x1 x3 x4 (ix1 p) = lsmClamp (by decide) (tail0Row x0 x3 x4 p) (wrapW 8000#32 (t0W (x1 (ix1 p)))) := by
  unfold val_main_v52
  refine (gather_pair_at gather_S4096x8000_S4096x2_S4096_n_01_n_n_01_1_11 rfl rfl rfl rfl _ _ p (by decide) p
    ⟨min (wrapW 8000#32 (t0W (x1 (ix1 p)))).toInt.toNat (8000 - 1), by omega⟩ ?_ ?_).trans (v33_apply x0 x3 x4 p _)
  · rw [v51_row]; exact (rowW_clamp p).symm
  · rw [v51_col]

theorem v75_row (p : Fin 4096) : val_main_v75 (F := Ideal) x1 (ix2 p 0) = rowW p := by
  unfold val_main_v75
  rw [concat_cols_left, val_main_v73_apply]
  have e : idx_main_v73 (ix2 p (0 : Fin 1)) = ix1 p := funext fun a => match a with | ⟨0, _⟩ => rfl
  rw [e]
  exact v67_apply p

theorem v75_col (p : Fin 4096) : val_main_v75 (F := Ideal) x1 (ix2 p 1) = wrapW 22000#32 (t1W (x1 (ix1 p))) := by
  unfold val_main_v75
  rw [concat_cols_right, val_main_v74_apply]
  have e : idx_main_v74 (ix2 p (0 : Fin 1)) = ix1 p := funext fun a => match a with | ⟨0, _⟩ => rfl
  rw [e]
  exact v72_apply x1 (ix1 p)

theorem v76_apply (p : Fin 4096) :
    val_main_v76 (F := Ideal) x0 x1 x5 x6 (ix1 p) = lsmClamp (by decide) (tail1Row x0 x5 x6 p) (wrapW 22000#32 (t1W (x1 (ix1 p)))) := by
  unfold val_main_v76
  refine (gather_pair_at gather_S4096x22000_S4096x2_S4096_n_01_n_n_01_1_11 rfl rfl rfl rfl _ _ p (by decide) p
    ⟨min (wrapW 22000#32 (t1W (x1 (ix1 p)))).toInt.toNat (22000 - 1), by omega⟩ ?_ ?_).trans (v57_apply x0 x5 x6 p _)
  · rw [v75_row]; exact (rowW_clamp p).symm
  · rw [v75_col]

/-! #### The first result at row p -/

theorem v78_row (p : Fin 4096) :
    val_main_v78 (F := Ideal) x0 x1 x2 x3 x4 x5 x6 (ix1 p) = ROUT x0 x2 x3 x4 x5 x6 (x1 (ix1 p)) p := by
  rw [val_main_v78_apply, val_main_v54_apply, val_main_v53_apply, val_main_v77_apply, v30_apply, v52_apply, v76_apply,
    v38_apply, v62_apply]
  rfl

end Stages

variable (m : (ℓ : Loc nD τ sig) → Buf (Elt Ideal) ℓ)

/-- The first result: row by row, the indexed spelling of the adaptive log-likelihood. -/
def out0 (c : Dev nD) : S4096.Idx → EReal := fun i =>
  ROUT (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg1) i) (i 0)

/-- The second result: minus the mean of the first. -/
def out1 (c : Dev nD) : S_.Idx → EReal :=
  Host.negf (F := Ideal) (Host.divf (F := Ideal) (Host.reduceAdd (F := Ideal) (out0 m c) (constant (F := Ideal) S_ .f32 0x00000000#32) reducesTo_S4096_S_d0 h_S_)
    (constant (F := Ideal) S_ .f32 0x45800000#32))

theorem res_v78_eq (c : Dev nD) : Cert.ReferenceIdeal.ValueP.res_main_v78 (F := Ideal) m c = out0 m c := by
  rw [ReadP.val_main_v78_eq]
  funext i
  obtain ⟨p, rfl⟩ : ∃ p : Fin 4096, i = ValueIdx.ix1 p := ⟨i 0, ValueIdx.eq_ix1 i⟩
  exact v78_row _ _ _ _ _ _ _ p

theorem res_v81_eq (c : Dev nD) : Cert.ReferenceIdeal.ValueP.res_main_v81 (F := Ideal) m c = out1 m c := by
  rw [ReadP.val_main_v81_eq]
  unfold ReadP.val_main_v81 ReadP.val_main_v80 ReadP.val_main_v79 out1
  rw [← ReadP.val_main_v78_eq m c, res_v78_eq m c]
  rfl

end Cert.ReferenceIdeal.RefValue

end
-- ==== Proof.Bridge.lean ====
/-
  The two spellings of one row of an adaptive-softmax log-likelihood agree.

  A column of a row is named by a 32-bit word g. When g, read as a natural number, is a position of the
  row (and the row has at most 2^32 columns, so that distinct positions have distinct words), the sum over
  all columns of "the entry if the column's word is g, else 0" has exactly one non-zero term, the entry at
  position g. When moreover g is non-negative as a signed word, wrapping a negative index leaves g alone,
  its signed value is its natural value, and clamping into the row leaves it alone. So the log-softmax
  found by mask and sum and the log-softmax read at the clamped, wrapped position are the same number.

  A term is switched off by a product with the 0 / 1 value of a one-bit word, or by a choice between the
  term and 0 on that word; on the extended reals x * 1 = x and x * 0 = 0 for every x, so the two agree.

  What remains is the range of the three column words of a non-negative target t: the head column is t
  itself below 2000, else 2000 or 2001; each tail column is a signed clip into [0, B] and so lies there
  whatever t is.
-/
import proofs.«422491_j80461917323672_2_alg».proof.Proof.Spec
import Idealize.ShloMosaic.PureOps.Ideal.Laws

noncomputable section

namespace Cert.Spec

open Idealize.ShloMosaic Idealize.ShloMosaic.ValueIdx
open scoped BigOperators

/-! ### Words: signed and natural value -/

/-- A word that is non-negative as a signed number has its natural value as signed value. -/
private theorem toInt_eq_toNat_of_nonneg (g : BitVec 32) (hg : 0 ≤ g.toInt) : g.toInt = (g.toNat : ℤ) := by
  have h := BitVec.toInt_eq_toNat_cond g
  have hlt := g.isLt
  split at h <;> omega

private theorem toNat_lt_of_nonneg (g : BitVec 32) (hg : 0 ≤ g.toInt) : g.toNat < 2 ^ 31 := by
  have h := BitVec.toInt_eq_toNat_cond g
  have hlt := g.isLt
  split at h <;> omega

/-! ### One column found by mask and sum -/

/-- The masked sum over the columns has one non-zero term: the entry at the position the word names. -/
private theorem pick_eq {n : ℕ} (hn : n ≤ 2 ^ 32) (l : Fin n → EReal) (g : BitVec 32) (hg : g.toNat < n) :
    pick l g = l ⟨g.toNat, hg⟩ := by
  unfold pick
  rw [Finset.sum_eq_single (⟨g.toNat, hg⟩ : Fin n)]
  · rw [if_pos]
    show BitVec.ofNat 32 g.toNat = g
    rw [BitVec.ofNat_toNat, BitVec.setWidth_eq]
  · intro j _ hj
    rw [if_neg]
    intro h
    apply hj
    apply Fin.ext
    have h' := congrArg BitVec.toNat h
    rw [BitVec.toNat_ofNat, Nat.mod_eq_of_lt (lt_of_lt_of_le j.isLt hn)] at h'
    exact h'
  · intro h
    exact absurd (Finset.mem_univ _) h

private theorem lsmPick_eq {n : ℕ} (hn : n ≤ 2 ^ 32) (l : Fin n → EReal) (g : BitVec 32) (hg : g.toNat < n) :
    lsmPick l g = lsmAt l ⟨g.toNat, hg⟩ := by
  unfold lsmPick lsmAt
  rw [pick_eq hn l g hg]

/-! ### One column read at the wrapped, clamped position -/

/-- Wrapping a negative index does nothing to a non-negative one. -/
private theorem wrapW_eq (n g : BitVec 32) (hg : 0 ≤ g.toInt) : wrapW n g = g := by
  have hs : g.slt 0#32 = false := by
    rw [BitVec.slt_eq_decide, decide_eq_false_iff_not]
    have : (0#32).toInt = 0 := by decide
    omega
  unfold wrapW Scalar.select IntOp.cmpi
  simp only [hs]
  rw [if_neg (by decide)]

/-- Clamping into the row does nothing to a position of the row. -/
private theorem lsmClamp_eq {n : ℕ} (hn : 0 < n) (l : Fin n → EReal) (g : BitVec 32) (hg0 : 0 ≤ g.toInt)
    (hg : g.toNat < n) : lsmClamp hn l g = lsmAt l ⟨g.toNat, hg⟩ := by
  unfold lsmClamp
  refine congrArg (lsmAt l) (Fin.ext ?_)
  show min g.toInt.toNat (n - 1) = g.toNat
  have h := toInt_eq_toNat_of_nonneg g hg0
  omega

/-- The two spellings of the log-softmax at a column agree on a non-negative word that names a position. -/
private theorem lsm_bridge {n : ℕ} (hn : 0 < n) (hn32 : n ≤ 2 ^ 32) (N : BitVec 32) (l : Fin n → EReal)
    (g : BitVec 32) (hg0 : 0 ≤ g.toInt) (hg : g.toNat < n) :
    lsmPick l g = lsmClamp hn l (wrapW N g) := by
  rw [wrapW_eq N g hg0, lsmPick_eq hn32 l g hg, lsmClamp_eq hn l g hg0 hg]

/-! ### The switch of a term -/

/-- A product with the 0 / 1 value of a one-bit word is the choice between the term and 0. -/
private theorem switch_eq (b : BitVec 1) (x : EReal) :
    x * FloatOps.uitofp (F := Ideal) .f32 b = Scalar.select b x (Ideal.ofBits .f32 0x00000000#32) := by
  rw [Ideal.ofBits_zero_f32]
  have hb : b = 0#1 ∨ b = 1#1 := by
    revert b
    decide
  rcases hb with rfl | rfl
  · show x * (((0#1).toNat : ℝ) : EReal) = if (0#1 : BitVec 1) = 1 then x else 0
    rw [if_neg (by decide)]
    simp
  · show x * (((1#1).toNat : ℝ) : EReal) = if (1#1 : BitVec 1) = 1 then x else 0
    rw [if_pos (by decide)]
    simp

/-! ### The ranges of the column words -/

/-- A signed clip into [0, B] lies in [0, B]. -/
private theorem clip_range (B s : BitVec 32) (hB : 0 ≤ B.toInt) :
    0 ≤ (IntOp.minsi B (IntOp.maxsi 0#32 s)).toInt ∧ (IntOp.minsi B (IntOp.maxsi 0#32 s)).toInt ≤ B.toInt := by
  have h0 : (0#32).toInt = 0 := by decide
  unfold IntOp.minsi IntOp.maxsi
  by_cases h1 : s.slt 0#32 = true
  · rw [if_pos h1]
    by_cases h2 : B.slt 0#32 = true
    · rw [if_pos h2]; omega
    · rw [if_neg h2]; omega
  · rw [if_neg h1]
    rw [BitVec.slt_eq_decide, decide_eq_true_iff] at h1
    by_cases h2 : B.slt s = true
    · rw [if_pos h2]; omega
    · rw [if_neg h2]
      rw [BitVec.slt_eq_decide, decide_eq_true_iff] at h2
      omega

private theorem t0W_range (t : BitVec 32) : 0 ≤ (t0W t).toInt ∧ (t0W t).toNat < 8000 := by
  have h := clip_range 7999#32 (IntOp.subi t 2000#32) (by decide)
  have hB : (7999#32).toInt = 7999 := by decide
  have e := toInt_eq_toNat_of_nonneg _ h.1
  unfold t0W
  refine ⟨h.1, ?_⟩
  omega

private theorem t1W_range (t : BitVec 32) : 0 ≤ (t1W t).toInt ∧ (t1W t).toNat < 22000 := by
  have h := clip_range 21999#32 (IntOp.subi t 10000#32) (by decide)
  have hB : (21999#32).toInt = 21999 := by decide
  have e := toInt_eq_toNat_of_nonneg _ h.1
  unfold t1W
  refine ⟨h.1, ?_⟩
  omega

/-- The one-bit result of a signed "at least" as a 32-bit word: 1 when it holds, 0 when not. -/
private theorem sge_word (t c : BitVec 32) :
    (IntOp.cmpi .sge t c).setWidth 32 = if c.toInt ≤ t.toInt then 1#32 else 0#32 := by
  unfold IntOp.cmpi
  show (BitVec.ofBool (c.sle t)).setWidth 32 = _
  rw [BitVec.sle_eq_decide]
  by_cases h : c.toInt ≤ t.toInt
  · rw [if_pos h, decide_eq_true h]; decide
  · rw [if_neg h, decide_eq_false h]; decide

/-- The head column of a non-negative target is non-negative and below 2002. -/
private theorem gidxW_range (t : BitVec 32) (ht : 0 ≤ t.toInt) :
    0 ≤ (gidxW t).toInt ∧ (gidxW t).toNat < 2002 := by
  have e := toInt_eq_toNat_of_nonneg t ht
  have h2000 : (2000#32).toInt = 2000 := by decide
  have h10000 : (10000#32).toInt = 10000 := by decide
  unfold gidxW cidW
  rw [sge_word, sge_word, h2000, h10000]
  by_cases h1 : (2000 : ℤ) ≤ t.toInt
  · rw [if_pos h1]
    by_cases h2 : (10000 : ℤ) ≤ t.toInt
    · rw [if_pos h2]
      have : Scalar.select (IntOp.cmpi .eq (IntOp.addi 1#32 1#32) 0#32) t
          (IntOp.subi (IntOp.addi 2000#32 (IntOp.addi 1#32 1#32)) 1#32) = 2001#32 := by
        unfold Scalar.select
        rw [if_neg (by decide)]
        decide
      rw [this]
      decide
    · rw [if_neg h2]
      have : Scalar.select (IntOp.cmpi .eq (IntOp.addi 1#32 0#32) 0#32) t
          (IntOp.subi (IntOp.addi 2000#32 (IntOp.addi 1#32 0#32)) 1#32) = 2000#32 := by
        unfold Scalar.select
        rw [if_neg (by decide)]
        decide
      rw [this]
      decide
  · have h2 : ¬ (10000 : ℤ) ≤ t.toInt := by omega
    rw [if_neg h1, if_neg h2]
    have : Scalar.select (IntOp.cmpi .eq (IntOp.addi 0#32 0#32) 0#32) t
        (IntOp.subi (IntOp.addi 2000#32 (IntOp.addi 0#32 0#32)) 1#32) = t := by
      unfold Scalar.select
      rw [if_pos (by decide)]
    rw [this]
    exact ⟨ht, by omega⟩

/-! ### One row of the result -/

theorem KOUT_eq_ROUT (X : (⟨2, ![4096, 1024]⟩ : Shape).Idx → EReal) (WH : (⟨2, ![1024, 2002]⟩ : Shape).Idx → EReal)
    (W10 : (⟨2, ![1024, 256]⟩ : Shape).Idx → EReal) (W20 : (⟨2, ![256, 8000]⟩ : Shape).Idx → EReal)
    (W11 : (⟨2, ![1024, 64]⟩ : Shape).Idx → EReal) (W21 : (⟨2, ![64, 22000]⟩ : Shape).Idx → EReal)
    (t : BitVec 32) (ht : 0 ≤ t.toInt) (r : Fin 4096) :
    KOUT X WH W10 W20 W11 W21 t r = ROUT X WH W10 W20 W11 W21 t r := by
  unfold KOUT ROUT
  rw [lsm_bridge (by decide) (by norm_num) 2002#32 (headRow X WH r) (gidxW t)
        (gidxW_range t ht).1 (gidxW_range t ht).2,
    lsm_bridge (by decide) (by norm_num) 8000#32 (tail0Row X W10 W20 r) (t0W t)
        (t0W_range t).1 (t0W_range t).2,
    lsm_bridge (by decide) (by norm_num) 22000#32 (tail1Row X W11 W21 r) (t1W t)
        (t1W_range t).1 (t1W_range t).2,
    switch_eq, switch_eq]

end Cert.Spec

end
-- ==== Proof.PreDecode.lean ====
import proofs.«422491_j80461917323672_2_alg».proof.Proof.Gen.Pre_finite_inputs
import Idealize.ShloMosaic.Lib.ReduceAll
import Idealize.ShloMosaic.Lib.StableHlo.Predicate

noncomputable section

namespace Cert.Pre_finite_inputs.Decode

open Idealize.ShloMosaic Cert.Pre_finite_inputs

/-- The rank-0 shape has exactly one index: a function out of the empty type. -/
private instance scalarIdxSubsingleton : Subsingleton S_.Idx := ⟨fun _ _ => funext fun d => d.elim0⟩

/-- The zero word reads as the integer zero. -/
private theorem zero_toInt : (0#32 : BitVec 32).toInt = 0 := by decide

/-- Where the precondition holds, every target word is non-negative as a signed integer. -/
theorem target_nonneg {F : FTy → Type} [FloatOps F] (a0 : FVec F S4096x1024 .f32) (a1 : IVec S4096 32) (a2 : FVec F S1024x2002 .f32)
    (a3 : FVec F S1024x256 .f32) (a4 : FVec F S256x8000 .f32) (a5 : FVec F S1024x64 .f32) (a6 : FVec F S64x22000 .f32)
    (h : fn (F := F) a0 a1 a2 a3 a4 a5 a6 = fun _ => 1#1) (i : S4096.Idx) : 0 ≤ (a1 i).toInt := by
  -- The precondition is a single bit; read it at the one index of the rank-0 shape.
  have h0 : fn (F := F) a0 a1 a2 a3 a4 a5 a6 (fun d => d.elim0) = 1#1 := congrFun h _
  -- That bit is a conjunction whose last conjunct is "all targets compare ≥ 0".
  obtain ⟨-, hall⟩ := IntOp.andi_eq_one.1 h0
  -- A conjunction over all rows that is 1 is 1 at every row.
  have hi := Host.reduce_andi_all _ _ _ _ _ hall i
  -- At row i the signed compare says the zero word is at most the target word.
  have hle := IntOp.cmpi_sge.1 hi
  -- The broadcast of the zero word is the zero word at every row, and it reads as the integer 0.
  calc (0 : Int) = (0#32 : BitVec 32).toInt := zero_toInt.symm
    _ ≤ (a1 i).toInt := hle

end Cert.Pre_finite_inputs.Decode

end
-- ==== Proof.lean ====
/-
  An adaptive-softmax log-likelihood: three pipelined kernels against a dense jnp reference, over the extended reals.

  Each batch row scores against a head of 2002 columns and two tails reached through a bottleneck (row vector
  times matrix times matrix). The kernel program computes, per cluster, the row's log-softmax at one column,
  the column found by a mask and a sum over all columns, and switches the tails by a factor 0 or 1; the reference
  computes the full log-softmax matrices, reads one column per row by a gather, and switches the tails by a choice
  against 0. Row by row both are: the entry at the column, less the row maximum, less the log of the sum of the
  shifted exponentials — the same extended reals, given that every column word names a position of its row. That
  holds for the tails by construction (the words are clipped) and for the head exactly when the target is not
  negative (a negative target is its own head column word: the mask finds no such column, while the reference's
  index wraps around): the precondition's last conjunct. A change of float format is the identity here, so the
  kernel's bf16 operands are the reference's f32 ones. The second result, minus the mean of the first, is the same
  function of equal arrays. No finiteness is used.

  The kernel's run with its results named is KernelValue.run (the three regions' output arrays read as whole-array
  functions, Region0/1/2, over what the host glue leaves in their windows, KHost); the reference's is its generated
  run (RefRun) read back row by row (RefValue); Bridge joins the two spellings of a row; PreDecode reads the
  precondition.
-/
import proofs.«422491_j80461917323672_2_alg».proof.Defs
import proofs.«422491_j80461917323672_2_alg».proof.Proof.Gen.Kernel
import proofs.«422491_j80461917323672_2_alg».proof.Proof.Gen.Kernel.Frame
import proofs.«422491_j80461917323672_2_alg».proof.Proof.Gen.KernelIdeal
import proofs.«422491_j80461917323672_2_alg».proof.Proof.Gen.KernelIdeal.Frame
import proofs.«422491_j80461917323672_2_alg».proof.Proof.Gen.ReferenceIdeal
import proofs.«422491_j80461917323672_2_alg».proof.Proof.Gen.Pre_finite_inputs
import proofs.«422491_j80461917323672_2_alg».proof.Proof.KernelValue
import proofs.«422491_j80461917323672_2_alg».proof.Proof.RefValue
import proofs.«422491_j80461917323672_2_alg».proof.Proof.Bridge
import proofs.«422491_j80461917323672_2_alg».proof.Proof.PreDecode
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a line of host operations: its run, with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Row by row the reference's first result is the kernel's, from memories that agree on the arguments, where
    the targets are not negative. -/
theorem out0_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.ReferenceIdeal.RefValue.out0 m' c = Cert.KernelIdeal.KernelValue.out0 m c := by
  funext i
  unfold Cert.ReferenceIdeal.RefValue.out0 Cert.KernelIdeal.KernelValue.out0
  rw [(hagree c).1, (hagree c).2.1, (hagree c).2.2.1, (hagree c).2.2.2.1, (hagree c).2.2.2.2.1, (hagree c).2.2.2.2.2.1,
    (hagree c).2.2.2.2.2.2]
  exact (Cert.Spec.KOUT_eq_ROUT _ _ _ _ _ _ _
    (Cert.Pre_finite_inputs.Decode.target_nonneg _ _ _ _ _ _ _ (hpre c) i) _).symm

/-- The two idealized programs, from memories agreeing on the arguments, end with equal results. -/
theorem algebraic : Cert.algebraic_KernelIdeal_ReferenceIdeal := by
  intro m ρ m' ρ' hpre hagree
  refine ⟨fun c => Cert.KernelIdeal.KernelValue.out0 m c, fun c => Cert.KernelIdeal.KernelValue.out1 m c,
    Cert.KernelIdeal.KernelValue.run m ρ, ?_⟩
  refine (θ_run Cert.ReferenceIdeal.defs _ _).mono (fun r h c => ⟨?_, ?_, (h c).2.2⟩)
    (Cert.ReferenceIdeal.ValueP.run (F := Ideal) m' ρ')
  · exact (h c).1.trans ((Cert.ReferenceIdeal.RefValue.res_v78_eq m' c).trans (out0_eq m m' hpre hagree c))
  · refine (h c).2.1.trans ((Cert.ReferenceIdeal.RefValue.res_v81_eq m' c).trans ?_)
    -- minus the mean of equal arrays
    unfold Cert.ReferenceIdeal.RefValue.out1 Cert.KernelIdeal.KernelValue.out1
    rw [out0_eq m m' hpre hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
